-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v83)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v83) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v91) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x64 : Shape := ⟨2, ![128, 64]⟩
abbrev S64 : Shape := ⟨1, ![64]⟩
abbrev S64x40 : Shape := ⟨2, ![64, 40]⟩
abbrev S40 : Shape := ⟨1, ![40]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x40 : S_.BroadcastsInDim S64x40 (![] : Fin 0 → Fin S64x40.rank)
  reducesTo_S64x40_S_d0_1 : S64x40.ReducesTo [0, 1] S_
  bcast_S_S40 : S_.BroadcastsInDim S40 (![] : Fin 0 → Fin S40.rank)
  reducesTo_S40_S_d0 : S40.ReducesTo [0] S_

variable [Facts]

def fn_part1 {F : FTy → Type} [FloatOps F] (main_arg5 : FVec F S40 .f32) (main_v13 : IVec S_ 1) (main_v16 : IVec S64x40 1) : IVec S_ 1 :=
  let main_c_5 : IVec S_ 1 := constantI S_ 1 1#1
  let main_v17 : IVec S_ 1 := (fun x v => Host.reduce IntOp.andi x v reducesTo_S64x40_S_d0_1 h_S_) main_v16 main_c_5
  let main_v18 : IVec S_ 1 := andi main_v13 main_v17
  let main_v19 : FVec F S40 .f32 := Host.absf main_arg5
  let main_cst_6 : FVec F S_ .f32 := constant S_ .f32 0x7F800000#32
  let main_v20 : FVec F S40 .f32 := broadcastInDim S40 ![] bcast_S_S40 main_cst_6
  let main_v21 : IVec S40 1 := cmpf .olt main_v19 main_v20
  let main_c_7 : IVec S_ 1 := constantI S_ 1 1#1
  let main_v22 : IVec S_ 1 := (fun x v => Host.reduce IntOp.andi x v reducesTo_S40_S_d0 h_S_) main_v21 main_c_7
  let main_v23 : IVec S_ 1 := andi main_v18 main_v22
  main_v23

def fn {F : FTy → Type} [FloatOps F] (main_arg0 : FVec F S100000x128 .f32) (main_arg1 : IVec S2x1600000 32) (main_arg2 : FVec F S128x64 .f32) (main_arg3 : FVec F S64 .f32) (main_arg4 : FVec F S64x40 .f32) (main_arg5 : FVec F S40 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x64 .f32 := Host.absf main_arg2
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x40 .f32 := Host.absf main_arg4
  let main_cst_4 : FVec F S_ .f32 := constant S_ .f32 0x7F800000#32
  let main_v15 : FVec F S64x40 .f32 := broadcastInDim S64x40 ![] bcast_S_S64x40 main_cst_4
  let main_v16 : IVec S64x40 1 := cmpf .olt main_v14 main_v15
  fn_part1 (F := F) main_arg5 main_v13 main_v16
-- ==== Kernel.lean ====
abbrev S100000x128 : Shape := ⟨2, ![100000, 128]⟩
abbrev S2x1600000 : Shape := ⟨2, ![2, 1600000]⟩
abbrev S128x64 : Shape := ⟨2, ![128, 64]⟩
abbrev S64 : Shape := ⟨1, ![64]⟩
abbrev S64x40 : Shape := ⟨2, ![64, 40]⟩
abbrev S40 : Shape := ⟨1, ![40]⟩
abbrev S1x1600000 : Shape := ⟨2, ![1, 1600000]⟩
abbrev S1600000 : Shape := ⟨1, ![1600000]⟩
abbrev S100000 : Shape := ⟨1, ![100000]⟩
abbrev S1700000 : Shape := ⟨1, ![1700000]⟩
abbrev S_ : Shape := ⟨0, ![]⟩
abbrev S1700000x1 : Shape := ⟨2, ![1700000, 1]⟩
abbrev S1700000x128 : Shape := ⟨2, ![1700000, 128]⟩
abbrev S100000x64 : Shape := ⟨2, ![100000, 64]⟩
abbrev S4000x128 : Shape := ⟨2, ![4000, 128]⟩
abbrev S4000x64 : Shape := ⟨2, ![4000, 64]⟩
abbrev S1x64 : Shape := ⟨2, ![1, 64]⟩
abbrev S1700000x64 : Shape := ⟨2, ![1700000, 64]⟩
abbrev S100000x40 : Shape := ⟨2, ![100000, 40]⟩
abbrev S4000x40 : Shape := ⟨2, ![4000, 40]⟩
abbrev S1x40 : Shape := ⟨2, ![1, 40]⟩
abbrev S4000 : Shape := ⟨1, ![4000]⟩
abbrev S4000x1 : Shape := ⟨2, ![4000, 1]⟩

abbrev nBuf : Space → Nat
  | .hbm => 112
  | .vmem => 12
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x64, .f32⟩
  | .hbm, ⟨3, _⟩ => ⟨S64, .f32⟩
  | .hbm, ⟨4, _⟩ => ⟨S64x40, .f32⟩
  | .hbm, ⟨5, _⟩ => ⟨S40, .f32⟩
  | .hbm, ⟨6, _⟩ => ⟨S1x1600000, .i32⟩
  | .hbm, ⟨7, _⟩ => ⟨S1600000, .i32⟩
  | .hbm, ⟨8, _⟩ => ⟨S1x1600000, .i32⟩
  | .hbm, ⟨9, _⟩ => ⟨S1600000, .i32⟩
  | .hbm, ⟨10, _⟩ => ⟨S100000, .i32⟩
  | .hbm, ⟨11, _⟩ => ⟨S1700000, .i32⟩
  | .hbm, ⟨12, _⟩ => ⟨S1700000, .i32⟩
  | .hbm, ⟨13, _⟩ => ⟨S_, .f32⟩
  | .hbm, ⟨14, _⟩ => ⟨S1700000, .f32⟩
  | .hbm, ⟨15, _⟩ => ⟨S_, .f32⟩
  | .hbm, ⟨16, _⟩ => ⟨S100000, .f32⟩
  | .hbm, ⟨17, _⟩ => ⟨S1700000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S100000, .f32⟩
  | .hbm, ⟨23, _⟩ => ⟨S_, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S_, .i32⟩
  | .hbm, ⟨28, _⟩ => ⟨S1700000, .i32⟩
  | .hbm, ⟨29, _⟩ => ⟨S1700000, .i1⟩
  | .hbm, ⟨30, _⟩ => ⟨S_, .i32⟩
  | .hbm, ⟨31, _⟩ => ⟨S1700000, .i32⟩
  | .hbm, ⟨32, _⟩ => ⟨S1700000, .i32⟩
  | .hbm, ⟨33, _⟩ => ⟨S1700000, .i32⟩
  | .hbm, ⟨34, _⟩ => ⟨S1700000x1, .i32⟩
  | .hbm, ⟨35, _⟩ => ⟨S1700000, .f32⟩
  | .hbm, ⟨36, _⟩ => ⟨S_, .i32⟩
  | .hbm, ⟨37, _⟩ => ⟨S1700000, .i32⟩
  | .hbm, ⟨38, _⟩ => ⟨S1700000, .i1⟩
  | .hbm, ⟨39, _⟩ => ⟨S_, .i32⟩
  | .hbm, ⟨40, _⟩ => ⟨S1700000, .i32⟩
  | .hbm, ⟨41, _⟩ => ⟨S1700000, .i32⟩
  | .hbm, ⟨42, _⟩ => ⟨S1700000, .i32⟩
  | .hbm, ⟨43, _⟩ => ⟨S1700000x1, .i32⟩
  | .hbm, ⟨44, _⟩ => ⟨S1700000, .f32⟩
  | .hbm, ⟨45, _⟩ => ⟨S1700000, .f32⟩
  | .hbm, ⟨46, _⟩ => ⟨S_, .i32⟩
  | .hbm, ⟨47, _⟩ => ⟨S1700000, .i32⟩
  | .hbm, ⟨48, _⟩ => ⟨S1700000, .i1⟩
  | .hbm, ⟨49, _⟩ => ⟨S_, .i32⟩
  | .hbm, ⟨50, _⟩ => ⟨S1700000, .i32⟩
  | .hbm, ⟨51, _⟩ => ⟨S1700000, .i32⟩
  | .hbm, ⟨52, _⟩ => ⟨S1700000, .i32⟩
  | .hbm, ⟨53, _⟩ => ⟨S1700000x1, .i32⟩
  | .hbm, ⟨54, _⟩ => ⟨S1700000x128, .f32⟩
  | .hbm, ⟨55, _⟩ => ⟨S1700000x1, .f32⟩
  | .hbm, ⟨56, _⟩ => ⟨S1700000x128, .f32⟩
  | .hbm, ⟨57, _⟩ => ⟨S1700000x128, .f32⟩
  | .hbm, ⟨58, _⟩ => ⟨S_, .f32⟩
  | .hbm, ⟨59, _⟩ => ⟨S100000x128, .f32⟩
  | .hbm, ⟨60, _⟩ => ⟨S1700000x1, .i32⟩
  | .hbm, ⟨61, _⟩ => ⟨S100000x128, .f32⟩
  | .hbm, ⟨62, _⟩ => ⟨S_, .i32⟩
  | .hbm, ⟨63, _⟩ => ⟨S1700000, .i32⟩
  | .hbm, ⟨64, _⟩ => ⟨S1700000, .i1⟩
  | .hbm, ⟨65, _⟩ => ⟨S_, .i32⟩
  | .hbm, ⟨66, _⟩ => ⟨S1700000, .i32⟩
  | .hbm, ⟨67, _⟩ => ⟨S1700000, .i32⟩
  | .hbm, ⟨68, _⟩ => ⟨S1700000, .i32⟩
  | .hbm, ⟨69, _⟩ => ⟨S1700000x1, .i32⟩
  | .hbm, ⟨70, _⟩ => ⟨S1700000x128, .f32⟩
  | .hbm, ⟨71, _⟩ => ⟨S1700000x1, .f32⟩
  | .hbm, ⟨72, _⟩ => ⟨S1700000x128, .f32⟩
  | .hbm, ⟨73, _⟩ => ⟨S1700000x128, .f32⟩
  | .hbm, ⟨74, _⟩ => ⟨S_, .f32⟩
  | .hbm, ⟨75, _⟩ => ⟨S100000x128, .f32⟩
  | .hbm, ⟨76, _⟩ => ⟨S1700000x1, .i32⟩
  | .hbm, ⟨77, _⟩ => ⟨S100000x128, .f32⟩
  | .hbm, ⟨78, _⟩ => ⟨S100000x64, .f32⟩
  | .hbm, ⟨79, _⟩ => ⟨S_, .i32⟩
  | .hbm, ⟨80, _⟩ => ⟨S1700000, .i32⟩
  | .hbm, ⟨81, _⟩ => ⟨S1700000, .i1⟩
  | .hbm, ⟨82, _⟩ => ⟨S_, .i32⟩
  | .hbm, ⟨83, _⟩ => ⟨S1700000, .i32⟩
  | .hbm, ⟨84, _⟩ => ⟨S1700000, .i32⟩
  | .hbm, ⟨85, _⟩ => ⟨S1700000, .i32⟩
  | .hbm, ⟨86, _⟩ => ⟨S1700000x1, .i32⟩
  | .hbm, ⟨87, _⟩ => ⟨S1700000x64, .f32⟩
  | .hbm, ⟨88, _⟩ => ⟨S1700000x1, .f32⟩
  | .hbm, ⟨89, _⟩ => ⟨S1700000x64, .f32⟩
  | .hbm, ⟨90, _⟩ => ⟨S1700000x64, .f32⟩
  | .hbm, ⟨91, _⟩ => ⟨S_, .f32⟩
  | .hbm, ⟨92, _⟩ => ⟨S100000x64, .f32⟩
  | .hbm, ⟨93, _⟩ => ⟨S1700000x1, .i32⟩
  | .hbm, ⟨94, _⟩ => ⟨S100000x64, .f32⟩
  | .hbm, ⟨95, _⟩ => ⟨S_, .i32⟩
  | .hbm, ⟨96, _⟩ => ⟨S1700000, .i32⟩
  | .hbm, ⟨97, _⟩ => ⟨S1700000, .i1⟩
  | .hbm, ⟨98, _⟩ => ⟨S_, .i32⟩
  | .hbm, ⟨99, _⟩ => ⟨S1700000, .i32⟩
  | .hbm, ⟨100, _⟩ => ⟨S1700000, .i32⟩
  | .hbm, ⟨101, _⟩ => ⟨S1700000, .i32⟩
  | .hbm, ⟨102, _⟩ => ⟨S1700000x1, .i32⟩
  | .hbm, ⟨103, _⟩ => ⟨S1700000x64, .f32⟩
  | .hbm, ⟨104, _⟩ => ⟨S1700000x1, .f32⟩
  | .hbm, ⟨105, _⟩ => ⟨S1700000x64, .f32⟩
  | .hbm, ⟨106, _⟩ => ⟨S1700000x64, .f32⟩
  | .hbm, ⟨107, _⟩ => ⟨S_, .f32⟩
  | .hbm, ⟨108, _⟩ => ⟨S100000x64, .f32⟩
  | .hbm, ⟨109, _⟩ => ⟨S1700000x1, .i32⟩
  | .hbm, ⟨110, _⟩ => ⟨S100000x64, .f32⟩
  | .hbm, ⟨111, _⟩ => ⟨S100000x40, .f32⟩
  | .local _ .vmem, ⟨0, _⟩ => ⟨S4000x128, .f32⟩
  | .local _ .vmem, ⟨1, _⟩ => ⟨S4000x128, .f32⟩
  | .local _ .vmem, ⟨2, _⟩ => ⟨S128x64, .f32⟩
  | .local _ .vmem, ⟨3, _⟩ => ⟨S64, .f32⟩
  | .local _ .vmem, ⟨4, _⟩ => ⟨S4000x64, .f32⟩
  | .local _ .vmem, ⟨5, _⟩ => ⟨S4000x64, .f32⟩
  | .local _ .vmem, ⟨6, _⟩ => ⟨S4000x64, .f32⟩
  | .local _ .vmem, ⟨7, _⟩ => ⟨S4000x64, .f32⟩
  | .local _ .vmem, ⟨8, _⟩ => ⟨S64x40, .f32⟩
  | .local _ .vmem, ⟨9, _⟩ => ⟨S40, .f32⟩
  | .local _ .vmem, ⟨10, _⟩ => ⟨S4000x40, .f32⟩
  | .local _ .vmem, ⟨11, _⟩ => ⟨S4000x40, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_c_6 : Ref sig .tc := ⟨.hbm, 46, rfl⟩
abbrev main_v30 : Ref sig .tc := ⟨.hbm, 47, rfl⟩
abbrev main_v31 : Ref sig .tc := ⟨.hbm, 48, rfl⟩
abbrev main_c_7 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_cst_8 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_c_9 : Ref sig .tc := ⟨.hbm, 62, rfl⟩
abbrev main_v43 : Ref sig .tc := ⟨.hbm, 63, rfl⟩
abbrev main_v44 : Ref sig .tc := ⟨.hbm, 64, rfl⟩
abbrev main_c_10 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_cst_11 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_c_12 : Ref sig .tc := ⟨.hbm, 79, rfl⟩
abbrev main_v57 : Ref sig .tc := ⟨.hbm, 80, rfl⟩
abbrev main_v58 : Ref sig .tc := ⟨.hbm, 81, rfl⟩
abbrev main_c_13 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_cst_14 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_c_15 : Ref sig .tc := ⟨.hbm, 95, rfl⟩
abbrev main_v70 : Ref sig .tc := ⟨.hbm, 96, rfl⟩
abbrev main_v71 : Ref sig .tc := ⟨.hbm, 97, rfl⟩
abbrev main_c_16 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_cst_17 : Ref sig .tc := ⟨.hbm, 107, rfl⟩
abbrev main_v80 : Ref sig .tc := ⟨.hbm, 108, rfl⟩
abbrev main_v81 : Ref sig .tc := ⟨.hbm, 109, rfl⟩
abbrev main_v82 : Ref sig .tc := ⟨.hbm, 110, rfl⟩
abbrev main_v83 : Ref sig .tc := ⟨.hbm, 111, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S4000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S64x40 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S40 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S4000x40 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  inb_S4000x128_S4000x128_0_0 : ∀ a, (![0, 0] : Fin 2 → Nat) a + S4000x128.size a ≤ S4000x128.size a
  h_S4000x128 : 0 < S4000x128.numel
  shapeCasts_S4000x128_S4000x128 : S4000x128.ShapeCasts S4000x128
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S64_S64_0 : ∀ a, (![0] : Fin 1 → Nat) a + S64.size a ≤ S64.size a
  h_S64 : 0 < S64.numel
  shapeCasts_S64_S1x64 : S64.ShapeCasts S1x64
  broadcasts_S1x64_S4000x64 : S1x64.Broadcasts S4000x64
  inb_S4000x64_S4000x64_0_0 : ∀ a, (![0, 0] : Fin 2 → Nat) a + S4000x64.size a ≤ S4000x64.size a
  h_S4000x64 : 0 < S4000x64.numel
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  shapeCasts_S4000x64_S4000x64 : S4000x64.ShapeCasts S4000x64
  inb_S64x40_S64x40_0_0 : ∀ a, (![0, 0] : Fin 2 → Nat) a + S64x40.size a ≤ S64x40.size a
  h_S64x40 : 0 < S64x40.numel
  inb_S40_S40_0 : ∀ a, (![0] : Fin 1 → Nat) a + S40.size a ≤ S40.size a
  h_S40 : 0 < S40.numel
  shapeCasts_S40_S1x40 : S40.ShapeCasts S1x40
  broadcasts_S1x40_S4000x40 : S1x40.Broadcasts S4000x40
  reduces_S4000x40_S4000 : S4000x40.Reduces [1] S4000
  shapeCasts_S4000_S4000x1 : S4000.ShapeCasts S4000x1
  broadcasts_S4000x1_S4000x40 : S4000x1.Broadcasts S4000x40
  inb_S4000x40_S4000x40_0_0 : ∀ a, (![0, 0] : Fin 2 → Nat) a + S4000x40.size a ≤ S4000x40.size a
  h_S4000x40 : 0 < S4000x40.numel
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S4000x128_S128x64_S4000x64_1_0_0_1_n_n_wf : DotDims.WF S4000x128 S128x64 S4000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S4000x64_S64x40_S4000x40_1_0_0_1_n_n_wf : DotDims.WF S4000x64 S64x40 S4000x40 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x128.size a ≤ S100000x128.size a
  hwx0_0 : ∀ i : grid0.Coords, EltTy.bits .f32 = 32 ∨ (Rect.block (s := S100000x128) S4000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64.size a ≤ S64.size a
  hwx0_2 : ∀ i : grid0.Coords, EltTy.bits .f32 = 32 ∨ (Rect.block (s := S64) S64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4000x64.size a ≤ S100000x64.size a
  hwx0_3 : ∀ i : grid0.Coords, EltTy.bits .f32 = 32 ∨ (Rect.block (s := S100000x64) S4000x64.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x64.size a ≤ S100000x64.size a
  hwx1_0 : ∀ i : grid1.Coords, EltTy.bits .f32 = 32 ∨ (Rect.block (s := S100000x64) S4000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S64x40.size a ≤ S64x40.size a
  hwx1_1 : ∀ i : grid1.Coords, EltTy.bits .f32 = 32 ∨ (Rect.block (s := S64x40) S64x40.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S40.size a ≤ S40.size a
  hwx1_2 : ∀ i : grid1.Coords, EltTy.bits .f32 = 32 ∨ (Rect.block (s := S40) S40.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S4000x40.size a ≤ S100000x40.size a
  hwx1_3 : ∀ i : grid1.Coords, EltTy.bits .f32 = 32 ∨ (Rect.block (s := S100000x40) S4000x40.size (cc1_transform_3 i) (hinb1_3 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S4000x128_S128x64_S4000x64_1_0_0_1_n_n : DotDims S4000x128 S128x64 S4000x64 where
  lhsContracting := [1]
  rhsContracting := [0]
  lhsNonContracting := [0]
  rhsNonContracting := [1]
  lhsBatch := []
  rhsBatch := []
  wf := dot_S4000x128_S128x64_S4000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S4000x64_S64x40_S4000x40_1_0_0_1_n_n : DotDims S4000x64 S64x40 S4000x40 where
  lhsContracting := [1]
  rhsContracting := [0]
  lhsNonContracting := [0]
  rhsNonContracting := [1]
  lhsBatch := []
  rhsBatch := []
  wf := dot_S4000x64_S64x40_S4000x40_1_0_0_1_n_n_wf

abbrev win0_0 : Pipeline.Window sig grid0 :=
  Pipeline.Window.ofSpec (Memref.whole main_v55) S4000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v56) S4000x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v82) S4000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S64x40.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S40.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v83) S4000x40.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x64 : Shape := ⟨2, ![128, 64]⟩
abbrev S64 : Shape := ⟨1, ![64]⟩
abbrev S64x40 : Shape := ⟨2, ![64, 40]⟩
abbrev S40 : Shape := ⟨1, ![40]⟩
abbrev S1x1600000 : Shape := ⟨2, ![1, 1600000]⟩
abbrev S1600000 : Shape := ⟨1, ![1600000]⟩
abbrev S100000 : Shape := ⟨1, ![100000]⟩
abbrev S1700000 : Shape := ⟨1, ![1700000]⟩
abbrev S_ : Shape := ⟨0, ![]⟩
abbrev S1700000x1 : Shape := ⟨2, ![1700000, 1]⟩
abbrev S1700000x128 : Shape := ⟨2, ![1700000, 128]⟩
abbrev S100000x64 : Shape := ⟨2, ![100000, 64]⟩
abbrev S1x64 : Shape := ⟨2, ![1, 64]⟩
abbrev S1700000x64 : Shape := ⟨2, ![1700000, 64]⟩
abbrev S100000x40 : Shape := ⟨2, ![100000, 40]⟩
abbrev S1x40 : Shape := ⟨2, ![1, 40]⟩
abbrev S100000x1 : Shape := ⟨2, ![100000, 1]⟩

abbrev nBuf : Space → Nat
  | .hbm => 136
  | .vmem => 0
  | .smem => 0
  | _ => 0

abbrev hbmTy0_0 (i : Nat) : BufTy := match i % 128 with
  | 0 => ⟨S100000x128, .f32⟩
  | 1 => ⟨S2x1600000, .i32⟩
  | 2 => ⟨S128x64, .f32⟩
  | 3 => ⟨S64, .f32⟩
  | 4 => ⟨S64x40, .f32⟩
  | 5 => ⟨S40, .f32⟩
  | 6 => ⟨S1x1600000, .i32⟩
  | 7 => ⟨S1600000, .i32⟩
  | 8 => ⟨S1x1600000, .i32⟩
  | 9 => ⟨S1600000, .i32⟩
  | 10 => ⟨S100000, .i32⟩
  | 11 => ⟨S1700000, .i32⟩
  | 12 => ⟨S1700000, .i32⟩
  | 13 => ⟨S_, .f32⟩
  | 14 => ⟨S1700000, .f32⟩
  | 15 => ⟨S_, .f32⟩
  | 16 => ⟨S100000, .f32⟩
  | 17 => ⟨S1700000x1, .i32⟩
  | 18 => ⟨S100000, .f32⟩
  | 19 => ⟨S_, .f32⟩
  | 20 => ⟨S100000, .f32⟩
  | 21 => ⟨S100000, .i1⟩
  | 22 => ⟨S100000, .f32⟩
  | 23 => ⟨S_, .f32⟩
  | 24 => ⟨S_, .f32⟩
  | 25 => ⟨S100000, .f32⟩
  | 26 => ⟨S100000, .f32⟩
  | 27 => ⟨S_, .i32⟩
  | 28 => ⟨S1700000, .i32⟩
  | 29 => ⟨S1700000, .i1⟩
  | 30 => ⟨S_, .i32⟩
  | 31 => ⟨S1700000, .i32⟩
  | 32 => ⟨S1700000, .i32⟩
  | 33 => ⟨S1700000, .i32⟩
  | 34 => ⟨S1700000x1, .i32⟩
  | 35 => ⟨S1700000, .f32⟩
  | 36 => ⟨S_, .i32⟩
  | 37 => ⟨S1700000, .i32⟩
  | 38 => ⟨S1700000, .i1⟩
  | 39 => ⟨S_, .i32⟩
  | 40 => ⟨S1700000, .i32⟩
  | 41 => ⟨S1700000, .i32⟩
  | 42 => ⟨S1700000, .i32⟩
  | 43 => ⟨S1700000x1, .i32⟩
  | 44 => ⟨S1700000, .f32⟩
  | 45 => ⟨S1700000, .f32⟩
  | 46 => ⟨S_, .i32⟩
  | 47 => ⟨S1700000, .i32⟩
  | 48 => ⟨S1700000, .i1⟩
  | 49 => ⟨S_, .i32⟩
  | 50 => ⟨S1700000, .i32⟩
  | 51 => ⟨S1700000, .i32⟩
  | 52 => ⟨S1700000, .i32⟩
  | 53 => ⟨S1700000x1, .i32⟩
  | 54 => ⟨S1700000x128, .f32⟩
  | 55 => ⟨S1700000x1, .f32⟩
  | 56 => ⟨S1700000x128, .f32⟩
  | 57 => ⟨S1700000x128, .f32⟩
  | 58 => ⟨S_, .f32⟩
  | 59 => ⟨S100000x128, .f32⟩
  | 60 => ⟨S1700000x1, .i32⟩
  | 61 => ⟨S100000x128, .f32⟩
  | 62 => ⟨S_, .i32⟩
  | 63 => ⟨S1700000, .i32⟩
  | 64 => ⟨S1700000, .i1⟩
  | 65 => ⟨S_, .i32⟩
  | 66 => ⟨S1700000, .i32⟩
  | 67 => ⟨S1700000, .i32⟩
  | 68 => ⟨S1700000, .i32⟩
  | 69 => ⟨S1700000x1, .i32⟩
  | 70 => ⟨S1700000x128, .f32⟩
  | 71 => ⟨S1700000x1, .f32⟩
  | 72 => ⟨S1700000x128, .f32⟩
  | 73 => ⟨S1700000x128, .f32⟩
  | 74 => ⟨S_, .f32⟩
  | 75 => ⟨S100000x128, .f32⟩
  | 76 => ⟨S1700000x1, .i32⟩
  | 77 => ⟨S100000x128, .f32⟩
  | 78 => ⟨S100000x64, .f32⟩
  | 79 => ⟨S1x64, .f32⟩
  | 80 => ⟨S100000x64, .f32⟩
  | 81 => ⟨S100000x64, .f32⟩
  | 82 => ⟨S_, .f32⟩
  | 83 => ⟨S100000x64, .f32⟩
  | 84 => ⟨S100000x64, .f32⟩
  | 85 => ⟨S_, .i32⟩
  | 86 => ⟨S1700000, .i32⟩
  | 87 => ⟨S1700000, .i1⟩
  | 88 => ⟨S_, .i32⟩
  | 89 => ⟨S1700000, .i32⟩
  | 90 => ⟨S1700000, .i32⟩
  | 91 => ⟨S1700000, .i32⟩
  | 92 => ⟨S1700000x1, .i32⟩
  | 93 => ⟨S1700000x64, .f32⟩
  | 94 => ⟨S1700000x1, .f32⟩
  | 95 => ⟨S1700000x64, .f32⟩
  | 96 => ⟨S1700000x64, .f32⟩
  | 97 => ⟨S_, .f32⟩
  | 98 => ⟨S100000x64, .f32⟩
  | 99 => ⟨S1700000x1, .i32⟩
  | 100 => ⟨S100000x64, .f32⟩
  | 101 => ⟨S_, .i32⟩
  | 102 => ⟨S1700000, .i32⟩
  | 103 => ⟨S1700000, .i1⟩
  | 104 => ⟨S_, .i32⟩
  | 105 => ⟨S1700000, .i32⟩
  | 106 => ⟨S1700000, .i32⟩
  | 107 => ⟨S1700000, .i32⟩
  | 108 => ⟨S1700000x1, .i32⟩
  | 109 => ⟨S1700000x64, .f32⟩
  | 110 => ⟨S1700000x1, .f32⟩
  | 111 => ⟨S1700000x64, .f32⟩
  | 112 => ⟨S1700000x64, .f32⟩
  | 113 => ⟨S_, .f32⟩
  | 114 => ⟨S100000x64, .f32⟩
  | 115 => ⟨S1700000x1, .i32⟩
  | 116 => ⟨S100000x64, .f32⟩
  | 117 => ⟨S100000x40, .f32⟩
  | 118 => ⟨S1x40, .f32⟩
  | 119 => ⟨S100000x40, .f32⟩
  | 120 => ⟨S100000x40, .f32⟩
  | 121 => ⟨S_, .f32⟩
  | 122 => ⟨S100000, .f32⟩
  | 123 => ⟨S_, .f32⟩
  | 124 => ⟨S100000, .f32⟩
  | 125 => ⟨S100000, .f32⟩
  | 126 => ⟨S100000x1, .f32⟩
  | 127 => ⟨S100000x40, .f32⟩
  | _ => ⟨S100000x128, .f32⟩

abbrev hbmTy0_1 (i : Nat) : BufTy := match i % 128 with
  | 0 => ⟨S100000x40, .f32⟩
  | 1 => ⟨S100000x40, .f32⟩
  | 2 => ⟨S_, .f32⟩
  | 3 => ⟨S100000, .f32⟩
  | 4 => ⟨S100000x1, .f32⟩
  | 5 => ⟨S100000x1, .f32⟩
  | 6 => ⟨S100000x40, .f32⟩
  | 7 => ⟨S100000x40, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_c_6 : Ref sig .tc := ⟨.hbm, 46, rfl⟩
abbrev main_v30 : Ref sig .tc := ⟨.hbm, 47, rfl⟩
abbrev main_v31 : Ref sig .tc := ⟨.hbm, 48, rfl⟩
abbrev main_c_7 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_cst_8 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_c_9 : Ref sig .tc := ⟨.hbm, 62, rfl⟩
abbrev main_v43 : Ref sig .tc := ⟨.hbm, 63, rfl⟩
abbrev main_v44 : Ref sig .tc := ⟨.hbm, 64, rfl⟩
abbrev main_c_10 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_cst_11 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_call1_cst : Ref sig .tc := ⟨.hbm, 82, rfl⟩
abbrev main_call1_v0 : Ref sig .tc := ⟨.hbm, 83, rfl⟩
abbrev main_v60 : Ref sig .tc := ⟨.hbm, 84, rfl⟩
abbrev main_c_12 : Ref sig .tc := ⟨.hbm, 85, rfl⟩
abbrev main_v61 : Ref sig .tc := ⟨.hbm, 86, rfl⟩
abbrev main_v62 : Ref sig .tc := ⟨.hbm, 87, rfl⟩
abbrev main_c_13 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_cst_14 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_c_15 : Ref sig .tc := ⟨.hbm, 101, rfl⟩
abbrev main_v74 : Ref sig .tc := ⟨.hbm, 102, rfl⟩
abbrev main_v75 : Ref sig .tc := ⟨.hbm, 103, rfl⟩
abbrev main_c_16 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩
abbrev main_cst_17 : Ref sig .tc := ⟨.hbm, 113, rfl⟩
abbrev main_v84 : Ref sig .tc := ⟨.hbm, 114, rfl⟩
abbrev main_v85 : Ref sig .tc := ⟨.hbm, 115, rfl⟩
abbrev main_v86 : Ref sig .tc := ⟨.hbm, 116, rfl⟩
abbrev main_v87 : Ref sig .tc := ⟨.hbm, 117, rfl⟩
abbrev main_v88 : Ref sig .tc := ⟨.hbm, 118, rfl⟩
abbrev main_v89 : Ref sig .tc := ⟨.hbm, 119, rfl⟩
abbrev main_v90 : Ref sig .tc := ⟨.hbm, 120, rfl⟩
abbrev main_call2_cst : Ref sig .tc := ⟨.hbm, 121, rfl⟩
abbrev main_call2_v0 : Ref sig .tc := ⟨.hbm, 122, rfl⟩
abbrev main_call2_cst_0 : Ref sig .tc := ⟨.hbm, 123, rfl⟩
abbrev main_call2_v1 : Ref sig .tc := ⟨.hbm, 124, rfl⟩
abbrev main_call2_v2 : Ref sig .tc := ⟨.hbm, 125, rfl⟩
abbrev main_call2_v3 : Ref sig .tc := ⟨.hbm, 126, rfl⟩
abbrev main_call2_v4 : Ref sig .tc := ⟨.hbm, 127, rfl⟩
abbrev main_call2_v5 : Ref sig .tc := ⟨.hbm, 128, rfl⟩
abbrev main_call2_v6 : Ref sig .tc := ⟨.hbm, 129, rfl⟩
abbrev main_call2_cst_1 : Ref sig .tc := ⟨.hbm, 130, rfl⟩
abbrev main_call2_v7 : Ref sig .tc := ⟨.hbm, 131, rfl⟩
abbrev main_call2_v8 : Ref sig .tc := ⟨.hbm, 132, rfl⟩
abbrev main_call2_v9 : Ref sig .tc := ⟨.hbm, 133, rfl⟩
abbrev main_call2_v10 : Ref sig .tc := ⟨.hbm, 134, rfl⟩
abbrev main_v91 : Ref sig .tc := ⟨.hbm, 135, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S100000x64 : S_.BroadcastsInDim S100000x64 (![] : Fin 0 → Fin S100000x64.rank)
  bcast_S1700000x1_S1700000x64_0_1 : S1700000x1.BroadcastsInDim S1700000x64 (![0, 1] : Fin 2 → Fin S1700000x64.rank)
  bcast_S40_S1x40_1 : S40.BroadcastsInDim S1x40 (![1] : Fin 1 → Fin S1x40.rank)
  bcast_S1x40_S100000x40_0_1 : S1x40.BroadcastsInDim S100000x40 (![0, 1] : Fin 2 → Fin S100000x40.rank)
  reducesTo_S100000x40_S100000_d1 : S100000x40.ReducesTo [1] S100000
  h_S_ : 0 < S_.numel
  bcast_S100000_S100000x1_0 : S100000.BroadcastsInDim S100000x1 (![0] : Fin 1 → Fin S100000x1.rank)
  bcast_S100000x1_S100000x40_0_1 : S100000x1.BroadcastsInDim S100000x40 (![0, 1] : Fin 2 → Fin S100000x40.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S100000x128_S128x64_S100000x64_1_0_0_1_n_n_wf : DotDims.WF S100000x128 S128x64 S100000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S100000x64_S64x40_S100000x40_1_0_0_1_n_n_wf : DotDims.WF S100000x64 S64x40 S100000x40 [1] [0] [0] [1] [] []

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S100000x64_S64x40_S100000x40_1_0_0_1_n_n : DotDims S100000x64 S64x40 S100000x40 where
  lhsContracting := [1]
  rhsContracting := [0]
  lhsNonContracting := [0]
  rhsNonContracting := [1]
  lhsBatch := []
  rhsBatch := []
  wf := dot_S100000x64_S64x40_S100000x40_1_0_0_1_n_n_wf

class Facts : Prop extends Facts₀ where

variable [Facts]
-- ==== Proof.LibPlainDot.lean ====
/-
  A matrix product of an [R, K] operand by a [K, C] operand, contracted over the one shared axis (the
  dimension numbers lhs_contracting = [1], rhs_contracting = [0], no batch axes), read at an entry (p, q) on the
  extended reals: the plain sum over k of l(p, k) · r(k, q). Stated for ANY dimension-number record of that
  form, so that it serves every such product whatever the record's name and whatever R, K, C are.
-/
import Idealize.ShloMosaic.PureOps.Ideal.Laws
import Idealize.ShloMosaic.Lib.ValueIdx

noncomputable section

namespace Idealize.ShloMosaic.PlainDot

open Idealize.ShloMosaic Idealize.ShloMosaic.ValueIdx

variable {R K C : ℕ}

/-- The dimension numbers of a plain row-by-column product: the left operand's axis 1 is contracted with the right
    operand's axis 0; the left operand's axis 0 and the right operand's axis 1 survive, in that order; no batch axes. -/
structure IsPlain (d : DotDims ⟨2, ![R, K]⟩ ⟨2, ![K, C]⟩ ⟨2, ![R, C]⟩) : Prop where
  lc : d.lhsContracting = [1]
  rc : d.rhsContracting = [0]
  ln : d.lhsNonContracting = [0]
  rn : d.rhsNonContracting = [1]
  lb : d.lhsBatch = []
  rb : d.rhsBatch = []

variable {d : DotDims ⟨2, ![R, K]⟩ ⟨2, ![K, C]⟩ ⟨2, ![R, C]⟩}

/-- A coordinate of an index depends on the axis' position only. -/
private theorem coord_congr {s : Shape} (j : s.Idx) (a b : Nat) (ha : a < s.rank) (hb : b < s.rank) (e : a = b) :
    (j ⟨a, ha⟩).val = (j ⟨b, hb⟩).val := by subst e; rfl

/-- The left operand's row is the result's row. -/
theorem lhs_row (h : IsPlain d) (j : (⟨2, ![R, C]⟩ : Shape).Idx) (k : d.contr.Idx) :
    (d.lhsIdx j k 0).val = (j 0).val := by
  unfold DotDims.lhsIdx
  rw [dif_neg (by rw [h.lb]; exact List.not_mem_nil), dif_pos (by rw [h.ln]; exact List.mem_singleton.mpr rfl)]
  simp only [Fin.val_cast]
  exact coord_congr j _ _ _ _ (by simp [h.lb, h.ln])

/-- The right operand's column is the result's column. -/
theorem rhs_col (h : IsPlain d) (j : (⟨2, ![R, C]⟩ : Shape).Idx) (k : d.contr.Idx) :
    (d.rhsIdx j k 1).val = (j 1).val := by
  unfold DotDims.rhsIdx
  rw [dif_neg (by rw [h.rb]; exact List.not_mem_nil), dif_pos (by rw [h.rn]; exact List.mem_singleton.mpr rfl)]
  simp only [Fin.val_cast]
  exact coord_congr j _ _ _ _ (by simp [h.lb, h.ln, h.rn])

theorem contr_rank (h : IsPlain d) : d.contr.rank = 1 := by
  rw [d.rank_contr, h.lc]; rfl

theorem contr_size (h : IsPlain d) : d.contr.size ⟨0, by rw [contr_rank h]; exact Nat.one_pos⟩ = K := by
  rw [d.size_contr 0 (by rw [h.lc]; exact Nat.one_pos)]
  simp [h.lc]

/-- The product read at (p, q): the sum over the contracted axis. -/
theorem sum_apply (h : IsPlain d) {φ₁ φ₂ : FTy} (l : FVec Ideal ⟨2, ![R, K]⟩ φ₁) (r : FVec Ideal ⟨2, ![K, C]⟩ φ₂)
    (p : Fin R) (q : Fin C) :
    (∑ k : d.contr.Idx, l (d.lhsIdx (ix2 p q) k) * r (d.rhsIdx (ix2 p q) k)) = ∑ k : Fin K, l (ix2 p k) * r (ix2 k q) := by
  rw [← Equiv.sum_comp (contrEquiv1 d K (contr_rank h) (contr_size h)).symm]
  refine Finset.sum_congr rfl fun k _ => ?_
  have hk := contrEquiv1_symm_val d K (contr_rank h) (contr_size h) k
  have el : d.lhsIdx (ix2 p q) ((contrEquiv1 d K (contr_rank h) (contr_size h)).symm k) = ix2 p k := funext fun a => Fin.ext (by
    match a with
    | ⟨0, _⟩ => exact lhs_row h _ _
    | ⟨1, _⟩ => exact (d.lhsIdx_val_of_single h.lc _ _).trans hk)
  have er : d.rhsIdx (ix2 p q) ((contrEquiv1 d K (contr_rank h) (contr_size h)).symm k) = ix2 k q := funext fun a => Fin.ext (by
    match a with
    | ⟨0, _⟩ => exact (d.rhsIdx_val_of_single h.rc _ _).trans hk
    | ⟨1, _⟩ => exact rhs_col h _ _)
  rw [el, er]

/-- A kernel's matrix product into a zero accumulator, read at (p, q). -/
theorem matmul_zero_apply (h : IsPlain d) {φ₁ φ₂ : FTy} (prec : Option ContractPrecision)
    (l : FVec Ideal ⟨2, ![R, K]⟩ φ₁) (r : FVec Ideal ⟨2, ![K, C]⟩ φ₂) (p : Fin R) (q : Fin C) :
    FloatOps.matmul d prec l r (constant ⟨2, ![R, C]⟩ .f32 0x00000000#32) (ix2 p q) = ∑ k : Fin K, l (ix2 p k) * r (ix2 k q) := by
  rw [Ideal.matmul_constant_zero_apply]
  exact sum_apply h l r p q

/-- The host's matrix product read at (p, q). -/
theorem dotGeneral_apply (h : IsPlain d) {φ₁ φ₂ : FTy} (prec : Option ContractPrecision) (sched : HostSchedule)
    (l : FVec Ideal ⟨2, ![R, K]⟩ φ₁) (r : FVec Ideal ⟨2, ![K, C]⟩ φ₂) (p : Fin R) (q : Fin C) :
    FloatOps.dotGeneral d prec sched l r (ix2 p q) = ∑ k : Fin K, l (ix2 p k) * r (ix2 k q) := by
  rw [Ideal.dotGeneral_apply]
  exact sum_apply h l r p q

end Idealize.ShloMosaic.PlainDot

end
-- ==== Proof.LibColumn.lean ====
/-
  Column forms of a row-wise reduction kept as a column (keepdims) and spread back over the row, read at an entry:
  a vector of `a` row results cast to an `[a, 1]` column reads the row's result; the column broadcast to `[a, b]` reads
  its row's one entry at every column; and the index a reduction over axis 1 of an `[a, b]` array reads for row `p` at
  position `k` of the reduced axis is `(p, k)`. Stated for any extents `a`, `b`.
-/
import Idealize.ShloMosaic.Lib.Pipeline.Value
import Idealize.ShloMosaic.Lib.ValueIdx
import Idealize.ShloMosaic.PureOps.Ideal.Laws

noncomputable section

namespace Idealize.ShloMosaic.ColumnForms

open Idealize.ShloMosaic Idealize.ShloMosaic.ValueIdx

variable {α : Type}

/-- An `[a]` array cast to an `[a, 1]` column reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- Reducing an `[a, b]` array over axis 1: the entry read for row `p` at position `k` of the reduced axis is `(p, k)`. -/
theorem lift_axis1 {a b : ℕ} (h : (⟨2, ![a, b]⟩ : Shape).Reduces [1] (⟨1, ![a]⟩ : Shape)) (p : Fin a)
    (k : Fin ((⟨2, ![a, b]⟩ : Shape).size 1)) : h.lift (ix1 p) k = ix2 p (⟨k.val, k.isLt⟩ : Fin b) := by
  funext c; apply Fin.ext
  fin_cases c <;> rfl

end Idealize.ShloMosaic.ColumnForms

end
-- ==== Proof.Layers.lean ====
/-
  The two dense layers of the network, as functions of a whole matrix, row by row, on the extended reals.
  A row r of the input goes through the affine map y(q) = (sum over k of r(k) * W(k, q)) + b(q). The first layer
  keeps max(y(q), 0). The second subtracts the row's maximum M = max over j of y(j), and then the logarithm of the
  sum over j of exp(y(j) - M): the row's log-softmax in its shifted form.
  Both layers act on each row by itself: entry (p, q) of the result reads row p of the input and nothing else. So the
  rows [4000 t, 4000 t + 4000) of the layer of a 100000-row matrix are the layer of those 4000 rows, whatever the
  row count is called: the definitions take the three extents as parameters, and the congruence lemmas at the end say
  that an entry of a layer depends only on the entries of one row, of the weights and of the bias.
  The literals (0.0 as the word 0x00000000, minus infinity as the word 0xFF800000) stay as words: both programs carry
  the same words, so their values are never computed here, except that minus infinity is neutral for max.
-/
import Idealize.ShloMosaic.PureOps.Ideal.Laws
import Idealize.ShloMosaic.Lib.ValueIdx

noncomputable section

namespace Cert.Layers

open Idealize.ShloMosaic Idealize.ShloMosaic.ValueIdx

variable {N K C : ℕ}

/-- Row `p` of a matrix, as a function of the column. -/
def rowOf (x : FVec Ideal ⟨2, ![N, K]⟩ .f32) (p : Fin N) : Fin K → EReal := fun k => x (ix2 p k)

/-- Entry `q` of `r · W + b` for one row `r`. -/
def affineRow (r : Fin K → EReal) (w : FVec Ideal ⟨2, ![K, C]⟩ .f32) (b : FVec Ideal ⟨1, ![C]⟩ .f32) (q : Fin C) : EReal :=
  (∑ k : Fin K, r k * w (ix2 k q)) + b (ix1 q)

/-- The first layer on one row: the affine map, then the maximum with 0.0. -/
def reluRow (r : Fin K → EReal) (w : FVec Ideal ⟨2, ![K, C]⟩ .f32) (b : FVec Ideal ⟨1, ![C]⟩ .f32) (q : Fin C) : EReal :=
  max (affineRow r w b q) (Ideal.ofBits .f32 0x00000000#32)

/-- A row's maximum, folded from minus infinity. -/
def rowMax (y : Fin C → EReal) : EReal := Finset.univ.fold max (Ideal.ofBits .f32 0xFF800000#32) y

/-- A row minus its maximum. -/
def shifted (y : Fin C → EReal) (q : Fin C) : EReal := y q - rowMax y

/-- A row's log-softmax in the shifted form: `(y - M) - log (sum of exp (y - M))`. -/
def logSoftmaxRow (y : Fin C → EReal) (q : Fin C) : EReal :=
  shifted y q - Ideal.log (∑ j : Fin C, Ideal.exp (shifted y j))

/-- The first layer of a whole matrix: row `p` of the result is `reluRow` of row `p`. -/
def reluLayer (x : FVec Ideal ⟨2, ![N, K]⟩ .f32) (w : FVec Ideal ⟨2, ![K, C]⟩ .f32) (b : FVec Ideal ⟨1, ![C]⟩ .f32) :
    FVec Ideal ⟨2, ![N, C]⟩ .f32 := fun i => reluRow (rowOf x (i 0)) w b (i 1)

/-- The second layer of a whole matrix: row `p` of the result is the log-softmax of row `p` through the affine map. -/
def logSoftmaxLayer (x : FVec Ideal ⟨2, ![N, K]⟩ .f32) (w : FVec Ideal ⟨2, ![K, C]⟩ .f32) (b : FVec Ideal ⟨1, ![C]⟩ .f32) :
    FVec Ideal ⟨2, ![N, C]⟩ .f32 := fun i => logSoftmaxRow (affineRow (rowOf x (i 0)) w b) (i 1)

theorem reluLayer_apply (x : FVec Ideal ⟨2, ![N, K]⟩ .f32) (w : FVec Ideal ⟨2, ![K, C]⟩ .f32) (b : FVec Ideal ⟨1, ![C]⟩ .f32)
    (p : Fin N) (q : Fin C) : reluLayer x w b (ix2 p q) = reluRow (rowOf x p) w b q := rfl

theorem logSoftmaxLayer_apply (x : FVec Ideal ⟨2, ![N, K]⟩ .f32) (w : FVec Ideal ⟨2, ![K, C]⟩ .f32) (b : FVec Ideal ⟨1, ![C]⟩ .f32)
    (p : Fin N) (q : Fin C) : logSoftmaxLayer x w b (ix2 p q) = logSoftmaxRow (affineRow (rowOf x p) w b) q := rfl

/-- Minus infinity is neutral for the maximum. -/
theorem max_negInf (y : EReal) : max (Ideal.ofBits .f32 0xFF800000#32) y = y := by
  simp [Ideal.ofBits, Ideal.ieee]

/-- The affine map of a row depends on the row's entries, the weights' entries and the bias' entries only: two rows of two
    matrices with equal entries, through weights and biases with equal entries, give the same affine row. -/
theorem affineRow_congr {N' : ℕ} (x : FVec Ideal ⟨2, ![N, K]⟩ .f32) (x' : FVec Ideal ⟨2, ![N', K]⟩ .f32)
    (w w' : FVec Ideal ⟨2, ![K, C]⟩ .f32) (b b' : FVec Ideal ⟨1, ![C]⟩ .f32) (p : Fin N) (p' : Fin N')
    (hx : ∀ k : Fin K, x (ix2 p k) = x' (ix2 p' k)) (hw : ∀ (k : Fin K) (j : Fin C), w (ix2 k j) = w' (ix2 k j))
    (hb : ∀ j : Fin C, b (ix1 j) = b' (ix1 j)) :
    affineRow (rowOf x p) w b = affineRow (rowOf x' p') w' b' := by
  funext j
  unfold affineRow rowOf
  rw [hb j]
  exact congrArg (· + b' (ix1 j)) (Finset.sum_congr rfl fun k _ => by rw [hx k, hw k j])

/-- So entry `(p, q)` of the first layer of one matrix is entry `(p', q)` of the first layer of another whose row `p'` has
    the entries of the first one's row `p`. -/
theorem reluLayer_congr {N' : ℕ} (x : FVec Ideal ⟨2, ![N, K]⟩ .f32) (x' : FVec Ideal ⟨2, ![N', K]⟩ .f32)
    (w w' : FVec Ideal ⟨2, ![K, C]⟩ .f32) (b b' : FVec Ideal ⟨1, ![C]⟩ .f32) (p : Fin N) (p' : Fin N') (q : Fin C)
    (hx : ∀ k : Fin K, x (ix2 p k) = x' (ix2 p' k)) (hw : ∀ (k : Fin K) (j : Fin C), w (ix2 k j) = w' (ix2 k j))
    (hb : ∀ j : Fin C, b (ix1 j) = b' (ix1 j)) :
    reluLayer x w b (ix2 p q) = reluLayer x' w' b' (ix2 p' q) := by
  rw [reluLayer_apply, reluLayer_apply]
  unfold reluRow
  rw [affineRow_congr x x' w w' b b' p p' hx hw hb]

/-- The same for the second layer. -/
theorem logSoftmaxLayer_congr {N' : ℕ} (x : FVec Ideal ⟨2, ![N, K]⟩ .f32) (x' : FVec Ideal ⟨2, ![N', K]⟩ .f32)
    (w w' : FVec Ideal ⟨2, ![K, C]⟩ .f32) (b b' : FVec Ideal ⟨1, ![C]⟩ .f32) (p : Fin N) (p' : Fin N') (q : Fin C)
    (hx : ∀ k : Fin K, x (ix2 p k) = x' (ix2 p' k)) (hw : ∀ (k : Fin K) (j : Fin C), w (ix2 k j) = w' (ix2 k j))
    (hb : ∀ j : Fin C, b (ix1 j) = b' (ix1 j)) :
    logSoftmaxLayer x w b (ix2 p q) = logSoftmaxLayer x' w' b' (ix2 p' q) := by
  rw [logSoftmaxLayer_apply, logSoftmaxLayer_apply, affineRow_congr x x' w w' b b' p p' hx hw hb]

end Cert.Layers

end
-- ==== Proof.KernelPayload.lean ====
/-
  What each kernel body stores, as a function of the three blocks it loads, is the corresponding layer of the block of
  rows: the first body stores max(x W + b, 0), the second the row-wise log-softmax of x W + b. The narrowing of the
  matrix product's operands to bf16 is the identity on the extended reals, the product into a zero accumulator is the
  plain sum over the contracted axis, the bias row is spread over the rows, the row maximum and the row sum of
  exponentials are folds over the 40 columns kept as a column and spread back over the row.
-/
import proofs.«139089_j33801392619927_1_alg».proof.Proof.Gen.KernelIdeal.Skeleton
import proofs.«139089_j33801392619927_1_alg».proof.Proof.LibPlainDot
import proofs.«139089_j33801392619927_1_alg».proof.Proof.LibColumn
import proofs.«139089_j33801392619927_1_alg».proof.Proof.Layers
import Idealize.ShloMosaic.Lib.ValueLayout

noncomputable section

namespace Cert.KernelIdeal.Payload

open Idealize.ShloMosaic Idealize.ShloMosaic.ValueIdx Idealize.ShloMosaic.ColumnForms Cert.KernelIdeal Cert.KernelIdeal.Gen Cert.Layers

/-- The first body's product contracts the left operand's columns with the right operand's rows. -/
theorem plain0 : PlainDot.IsPlain (R := 4000) (K := 128) (C := 64) dot_S4000x128_S128x64_S4000x64_1_0_0_1_n_n :=
  ⟨rfl, rfl, rfl, rfl, rfl, rfl⟩

/-- So does the second body's. -/
theorem plain1 : PlainDot.IsPlain (R := 4000) (K := 64) (C := 40) dot_S4000x64_S64x40_S4000x40_1_0_0_1_n_n :=
  ⟨rfl, rfl, rfl, rfl, rfl, rfl⟩

/-- The first body's affine part at `(p, q)`: row `p` of the block through `W`, plus `b(q)`. -/
theorem affine0 (x : Vec Ideal S4000x128 .f32) (w : Vec Ideal S128x64 .f32) (b : Vec Ideal S64 .f32) (p : Fin 4000) (q : Fin 64) :
    (addf (matmul dot_S4000x128_S128x64_S4000x64_1_0_0_1_n_n none
        (truncf .bf16 (shapeCast S4000x128 x shapeCasts_S4000x128_S4000x128) bitsLt_bf16_f32) (truncf .bf16 w bitsLt_bf16_f32)
        (constant S4000x64 .f32 0x00000000#32))
      (broadcastTo S4000x64 (shapeCast S1x64 b shapeCasts_S64_S1x64) broadcasts_S1x64_S4000x64) : FVec Ideal S4000x64 .f32) (ix2 p q)
    = affineRow (rowOf (N := 4000) x p) w b q := by
  rw [addf_apply, shapeCast_self, broadcastTo_1b_ab_apply, shapeCast_a_1a_apply]
  refine congrArg (· + b (ix1 q)) ?_
  exact PlainDot.matmul_zero_apply plain0 none _ _ p q

/-- The second body's affine part at `(p, q)`. -/
theorem affine1 (x : Vec Ideal S4000x64 .f32) (w : Vec Ideal S64x40 .f32) (b : Vec Ideal S40 .f32) (p : Fin 4000) (q : Fin 40) :
    (addf (matmul dot_S4000x64_S64x40_S4000x40_1_0_0_1_n_n none
        (truncf .bf16 (shapeCast S4000x64 x shapeCasts_S4000x64_S4000x64) bitsLt_bf16_f32) (truncf .bf16 w bitsLt_bf16_f32)
        (constant S4000x40 .f32 0x00000000#32))
      (broadcastTo S4000x40 (shapeCast S1x40 b shapeCasts_S40_S1x40) broadcasts_S1x40_S4000x40) : FVec Ideal S4000x40 .f32) (ix2 p q)
    = affineRow (rowOf (N := 4000) x p) w b q := by
  rw [addf_apply, shapeCast_self, broadcastTo_1b_ab_apply, shapeCast_a_1a_apply]
  refine congrArg (· + b (ix1 q)) ?_
  exact PlainDot.matmul_zero_apply plain1 none _ _ p q

/-- The first body stores the first layer of its block of rows. -/
theorem pay0_eq (x : Vec Ideal S4000x128 .f32) (w : Vec Ideal S128x64 .f32) (b : Vec Ideal S64 .f32) :
    k0_pay1 (F := Ideal) x w b = reluLayer (N := 4000) (K := 128) (C := 64) x w b := by
  funext j
  obtain ⟨p, q, rfl⟩ : ∃ (p : Fin 4000) (q : Fin 64), j = ix2 p q := ⟨j 0, j 1, eq_ix2 j⟩
  rw [reluLayer_apply]
  exact congrArg (fun z => max z (Ideal.ofBits .f32 0x00000000#32)) (affine0 x w b p q)

/-! ## The second body: the row-wise log-softmax -/

/-- A row maximum taken by the vector unit from minus infinity, at row `p`: the fold of `max` over the row's 40 entries. -/
theorem rowMax_apply (A : FVec Ideal S4000x40 .f32) (p : Fin 4000) :
    multiReduction .maximumf [1] S4000 A 0xFF800000#32 reduces_S4000x40_S4000 (.inl rfl) rfl (ix1 p)
      = rowMax (fun k : Fin 40 => A (ix2 p k)) := by
  refine (Ideal.multiReduction_maximumf_single A 0xFF800000#32 reduces_S4000x40_S4000 (.inl rfl) rfl (ix1 p)).trans ?_
  exact congrArg (fun f => Finset.fold max (Ideal.ofBits .f32 0xFF800000#32) f (Finset.univ : Finset (Fin 40)))
    (funext fun k => congrArg A (lift_axis1 reduces_S4000x40_S4000 p k))

/-- A row sum taken by the vector unit from 0.0, at row `p`: the sum of the row's 40 entries. -/
theorem rowSum_apply (E : FVec Ideal S4000x40 .f32) (p : Fin 4000) :
    multiReduction .add [1] S4000 E 0x00000000#32 reduces_S4000x40_S4000 (.inl rfl) rfl (ix1 p)
      = ∑ k : Fin 40, E (ix2 p k) := by
  refine (Ideal.multiReduction_add_single E 0x00000000#32 reduces_S4000x40_S4000 (.inl rfl) rfl (ix1 p)).trans ?_
  exact Finset.sum_congr rfl fun k _ => congrArg E (lift_axis1 reduces_S4000x40_S4000 p k)

/-- The block minus its row maxima, the maxima kept as a column and spread back over the rows. -/
def shiftRows (A : FVec Ideal S4000x40 .f32) : FVec Ideal S4000x40 .f32 :=
  subf A (broadcastTo S4000x40 (shapeCast S4000x1
    (multiReduction .maximumf [1] S4000 A 0xFF800000#32 reduces_S4000x40_S4000 (.inl rfl) rfl) shapeCasts_S4000_S4000x1) broadcasts_S4000x1_S4000x40)

theorem shiftRows_apply (A : FVec Ideal S4000x40 .f32) (y : Fin 40 → EReal) (p : Fin 4000) (hA : ∀ k : Fin 40, A (ix2 p k) = y k)
    (q : Fin 40) : shiftRows A (ix2 p q) = shifted y q := by
  unfold shiftRows shifted
  rw [subf_apply, broadcastTo_a1_ab_apply, shapeCast_a_a1_apply, rowMax_apply, hA]
  exact congrArg (fun f => y q - rowMax f) (funext hA)

/-- The shifted block minus the logarithm of its rows' sums of exponentials, those kept as a column and spread back. -/
def logSoftmaxRows (A : FVec Ideal S4000x40 .f32) : FVec Ideal S4000x40 .f32 :=
  subf (shiftRows A) (broadcastTo S4000x40 (log (shapeCast S4000x1
    (multiReduction .add [1] S4000 (exp (shiftRows A)) 0x00000000#32 reduces_S4000x40_S4000 (.inl rfl) rfl) shapeCasts_S4000_S4000x1))
    broadcasts_S4000x1_S4000x40)

theorem logSoftmaxRows_apply (A : FVec Ideal S4000x40 .f32) (y : Fin 40 → EReal) (p : Fin 4000) (hA : ∀ k : Fin 40, A (ix2 p k) = y k)
    (q : Fin 40) : logSoftmaxRows A (ix2 p q) = logSoftmaxRow y q := by
  unfold logSoftmaxRows logSoftmaxRow
  rw [subf_apply, broadcastTo_a1_ab_apply, shiftRows_apply A y p hA q]
  refine congrArg (fun z => shifted y q - z) ?_
  show Ideal.log (shapeCast S4000x1 (multiReduction .add [1] S4000 (exp (shiftRows A)) 0x00000000#32 reduces_S4000x40_S4000 (.inl rfl) rfl)
    shapeCasts_S4000_S4000x1 (ix2 p (0 : Fin 1))) = _
  rw [shapeCast_a_a1_apply, rowSum_apply]
  exact congrArg Ideal.log (Finset.sum_congr rfl fun k _ => congrArg Ideal.exp (shiftRows_apply A y p hA k))

/-- The second body stores the second layer of its block of rows. -/
theorem pay1_eq (x : Vec Ideal S4000x64 .f32) (w : Vec Ideal S64x40 .f32) (b : Vec Ideal S40 .f32) :
    k1_pay1 (F := Ideal) x w b = logSoftmaxLayer (N := 4000) (K := 64) (C := 40) x w b := by
  funext j
  obtain ⟨p, q, rfl⟩ : ∃ (p : Fin 4000) (q : Fin 40), j = ix2 p q := ⟨j 0, j 1, eq_ix2 j⟩
  rw [logSoftmaxLayer_apply]
  exact logSoftmaxRows_apply _ _ p (fun k => affine1 x w b p k) q

end Cert.KernelIdeal.Payload

end
-- ==== Proof.KernelRegions.lean ====
/-
  What a region leaves in its output array, as one function of the arrays it is entered with.
  Region 0 walks the 100000 rows in 25 blocks of 4000: at point t it loads rows [4000 t, 4000 t + 4000) of the
  propagated features, the whole weight matrix and the whole bias, and writes back the first layer of that block; the
  layer reads each row by itself, so what point t writes back is rows [4000 t, 4000 t + 4000) of the first layer of the
  whole matrix. Row r lies in block r / 4000, so the 25 blocks cover the output array, which therefore ends holding
  the first layer of the whole matrix. Region 1 is the same with the second layer.
-/
import proofs.«139089_j33801392619927_1_alg».proof.Proof.Gen.KernelIdeal.Frame
import proofs.«139089_j33801392619927_1_alg».proof.Proof.KernelPayload

set_option maxRecDepth 16384

noncomputable section

namespace Cert.KernelIdeal.RegionValue

open Idealize.ShloMosaic Idealize.ShloMosaic.TcCoe Idealize.ShloMosaic.ValueIdx Idealize.SL.Sem
open Cert.KernelIdeal Cert.KernelIdeal.Gen Cert.KernelIdeal.Payload Cert.Layers
open Idealize.ShloMosaic.Pipeline (Dat Cfg Window)

-- the buffer contents a region is entered with
variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a <;> rfl

/-! ## Region 0 -/

/-- The arrays region 0 reads, at their literal types. -/
abbrev feat0 (c : Dev nD) : FVec Ideal S100000x128 .f32 := V c main_v55
abbrev wgt0 (c : Dev nD) : FVec Ideal S128x64 .f32 := V c main_arg2
abbrev bias0 (c : Dev nD) : FVec Ideal S64 .f32 := V c main_arg3

/-- The blocks point `t` loads, at their literal types. -/
abbrev xblk0 (c : Dev nD) (t : Fin cfg0.N) : FVec Ideal S4000x128 .f32 := iblk0 V c 0 t
abbrev wblk0 (c : Dev nD) (t : Fin cfg0.N) : FVec Ideal S128x64 .f32 := iblk0 V c 1 t
abbrev bblk0 (c : Dev nD) (t : Fin cfg0.N) : FVec Ideal S64 .f32 := iblk0 V c 2 t

/-- The block indices at point `t`: the row-blocked windows are at block `t`, the whole-array windows at block 0. -/
theorem idx0 : ∀ t : Fin cfg0.N, win0_0.index t (0 : Fin 2) = t.val ∧ win0_0.index t (1 : Fin 2) = 0
    ∧ win0_1.index t (0 : Fin 2) = 0 ∧ win0_1.index t (1 : Fin 2) = 0 ∧ win0_2.index t (0 : Fin 1) = 0
    ∧ win0_3.index t (0 : Fin 2) = t.val ∧ win0_3.index t (1 : Fin 2) = 0 :=
  (by decide +kernel : ∀ t : Fin grid0.N, _)

/-- Row `p` of the block point `t` loads is row `4000 t + p` of the features. -/
theorem xblk0_apply (c : Dev nD) (t : Fin cfg0.N) (p : Fin 4000) (k : Fin 128) (P : Fin 100000) (hP : P.val = t.val * 4000 + p.val) :
    xblk0 V c t (ix2 p k) = feat0 V c (ix2 P k) := by
  obtain ⟨e00, e01, -⟩ := idx0 t
  show feat0 V c (((cfg0.win 0).blk t).view.emb (ix2 p k)) = feat0 V c (ix2 P k)
  refine congrArg (feat0 V c) (funext fun a => Fin.ext ?_)
  match a with
  | ⟨0, _⟩ => show win0_0.index t (0 : Fin 2) * 4000 + 1 * p.val = P.val; rw [e00, hP]; omega
  | ⟨1, _⟩ => show win0_0.index t (1 : Fin 2) * 128 + 1 * k.val = k.val; rw [e01]; omega

/-- The weights' block is the whole weight matrix. -/
theorem wblk0_apply (c : Dev nD) (t : Fin cfg0.N) (k : Fin 128) (j : Fin 64) : wblk0 V c t (ix2 k j) = wgt0 V c (ix2 k j) := by
  obtain ⟨-, -, e10, e11, -⟩ := idx0 t
  show wgt0 V c (((cfg0.win 1).blk t).view.emb (ix2 k j)) = wgt0 V c (ix2 k j)
  refine congrArg (wgt0 V c) (funext fun a => Fin.ext ?_)
  match a with
  | ⟨0, _⟩ => show win0_1.index t (0 : Fin 2) * 128 + 1 * k.val = k.val; rw [e10]; omega
  | ⟨1, _⟩ => show win0_1.index t (1 : Fin 2) * 64 + 1 * j.val = j.val; rw [e11]; omega

/-- The bias' block is the whole bias. -/
theorem bblk0_apply (c : Dev nD) (t : Fin cfg0.N) (j : Fin 64) : bblk0 V c t (ix1 j) = bias0 V c (ix1 j) := by
  obtain ⟨-, -, -, -, e20, -⟩ := idx0 t
  show bias0 V c (((cfg0.win 2).blk t).view.emb (ix1 j)) = bias0 V c (ix1 j)
  refine congrArg (bias0 V c) (funext fun a => Fin.ext ?_)
  match a with
  | ⟨0, _⟩ => show win0_2.index t (0 : Fin 1) * 64 + 1 * j.val = j.val; rw [e20]; omega

/-- What point `t` writes back is block `t` of the first layer of the whole feature matrix. -/
theorem flushed0 (c : Dev nD) (t : Fin cfg0.N) :
    (dat0 V c).flushed 3 t = ((cfg0.win 3).blk t).view.read (Elt Ideal)
      (reluLayer (N := 100000) (K := 128) (C := 64) (feat0 V c) (wgt0 V c) (bias0 V c)) := by
  show (cfg0.win 3).cut (grid0.coords t) ((dat0 V c).after 3 t) = _
  rw [after0_3]
  unfold out0_3
  rw [View.canon_unit_zero hz2]
  simp only [View.ld_unit_zero (S := S4000x128) hz2, View.ld_unit_zero (S := S128x64) hz2, View.ld_unit_zero (S := S64) hz1]
  rw [pay0_eq]
  obtain ⟨-, -, -, -, -, e30, e31⟩ := idx0 t
  have ht : t.val < 25 := lt_of_lt_of_eq t.isLt N_0
  funext j
  obtain ⟨p, q, rfl⟩ : ∃ (p : Fin 4000) (q : Fin 64), j = ix2 p q := ⟨j 0, j 1, eq_ix2 j⟩
  have hemb : ((cfg0.win 3).blk t).view.emb (ix2 p q)
      = ix2 (⟨t.val * 4000 + p.val, by have := p.isLt; omega⟩ : Fin 100000) q := by
    funext a; apply Fin.ext
    match a with
    | ⟨0, _⟩ => show win0_3.index t (0 : Fin 2) * 4000 + 1 * p.val = t.val * 4000 + p.val; rw [e30]; omega
    | ⟨1, _⟩ => show win0_3.index t (1 : Fin 2) * 64 + 1 * q.val = q.val; rw [e31]; omega
  show reluLayer (N := 4000) (xblk0 V c t) (wblk0 V c t) (bblk0 V c t) (ix2 p q)
    = reluLayer (N := 100000) (feat0 V c) (wgt0 V c) (bias0 V c) (((cfg0.win 3).blk t).view.emb (ix2 p q))
  rw [hemb]
  exact reluLayer_congr _ _ _ _ _ _ p _ q (fun k => xblk0_apply V c t p k _ rfl) (fun k j => wblk0_apply V c t k j)
    (fun j => bblk0_apply V c t j)

/-- An index of the output array is in point `t`'s block iff each coordinate is in the block's range on its axis. -/
theorem mem_blk0 (t : Fin cfg0.N) (i : S100000x64.Idx) :
    i ∈ ((cfg0.win 3).blk t).view.set ↔ ∀ a : Fin 2, win0_3.index t a * S4000x64.size a ≤ (i a).val
      ∧ (i a).val < win0_3.index t a * S4000x64.size a + S4000x64.size a := by
  show i ∈ ((View.whole main_v56).slice (win0_3.rect t)).set ↔ _
  rw [View.set_slice_whole, Rect.mem_set_unit]
  exact Iff.rfl

/-- Row `r` of the output lies in block `r / 4000`: the 25 blocks cover the array. -/
theorem cover0 (i : S100000x64.Idx) : ∃ t : Fin cfg0.N, (cfg0.win 3).flush t = true ∧ i ∈ ((cfg0.win 3).blk t).view.set := by
  have hi0 : (i 0).val < 100000 := (i 0).isLt
  have hi1 : (i 1).val < 64 := (i 1).isLt
  obtain ⟨t, ht⟩ : ∃ t : Fin cfg0.N, t.val = (i 0).val / 4000 :=
    ⟨⟨(i 0).val / 4000, lt_of_lt_of_eq (by omega : (i 0).val / 4000 < 25) N_0.symm⟩, rfl⟩
  obtain ⟨-, -, -, -, -, e30, e31⟩ := idx0 t
  refine ⟨t, flush0_3 t, ?_⟩
  rw [mem_blk0]
  intro a
  match a with
  | ⟨0, _⟩ =>
    show win0_3.index t (0 : Fin 2) * 4000 ≤ (i 0).val ∧ (i 0).val < win0_3.index t (0 : Fin 2) * 4000 + 4000
    rw [e30, ht]; omega
  | ⟨1, _⟩ =>
    show win0_3.index t (1 : Fin 2) * 64 ≤ (i 1).val ∧ (i 1).val < win0_3.index t (1 : Fin 2) * 64 + 64
    rw [e31]; omega

/-- Region 0's output array ends holding the first layer of the features it was entered with. -/
theorem final0 (c : Dev nD) : (dat0 V c).arrAt 3 cfg0.N
    = reluLayer (N := 100000) (K := 128) (C := 64) (feat0 V c) (wgt0 V c) (bias0 V c) :=
  (dat0 V c).arrAt_eq_of_cover 3 _ (fun t _ => flushed0 V c t) (cover0)

/-! ## Region 1 -/

/-- The arrays region 1 reads, at their literal types. -/
abbrev feat1 (c : Dev nD) : FVec Ideal S100000x64 .f32 := V c main_v82
abbrev wgt1 (c : Dev nD) : FVec Ideal S64x40 .f32 := V c main_arg4
abbrev bias1 (c : Dev nD) : FVec Ideal S40 .f32 := V c main_arg5

/-- The blocks point `t` loads, at their literal types. -/
abbrev xblk1 (c : Dev nD) (t : Fin cfg1.N) : FVec Ideal S4000x64 .f32 := iblk1 V c 0 t
abbrev wblk1 (c : Dev nD) (t : Fin cfg1.N) : FVec Ideal S64x40 .f32 := iblk1 V c 1 t
abbrev bblk1 (c : Dev nD) (t : Fin cfg1.N) : FVec Ideal S40 .f32 := iblk1 V c 2 t

/-- The block indices at point `t`: the row-blocked windows are at block `t`, the whole-array windows at block 0. -/
theorem idx1 : ∀ t : Fin cfg1.N, win1_0.index t (0 : Fin 2) = t.val ∧ win1_0.index t (1 : Fin 2) = 0
    ∧ win1_1.index t (0 : Fin 2) = 0 ∧ win1_1.index t (1 : Fin 2) = 0 ∧ win1_2.index t (0 : Fin 1) = 0
    ∧ win1_3.index t (0 : Fin 2) = t.val ∧ win1_3.index t (1 : Fin 2) = 0 :=
  (by decide +kernel : ∀ t : Fin grid1.N, _)

/-- Row `p` of the block point `t` loads is row `4000 t + p` of the hidden features. -/
theorem xblk1_apply (c : Dev nD) (t : Fin cfg1.N) (p : Fin 4000) (k : Fin 64) (P : Fin 100000) (hP : P.val = t.val * 4000 + p.val) :
    xblk1 V c t (ix2 p k) = feat1 V c (ix2 P k) := by
  obtain ⟨e00, e01, -⟩ := idx1 t
  show feat1 V c (((cfg1.win 0).blk t).view.emb (ix2 p k)) = feat1 V c (ix2 P k)
  refine congrArg (feat1 V c) (funext fun a => Fin.ext ?_)
  match a with
  | ⟨0, _⟩ => show win1_0.index t (0 : Fin 2) * 4000 + 1 * p.val = P.val; rw [e00, hP]; omega
  | ⟨1, _⟩ => show win1_0.index t (1 : Fin 2) * 64 + 1 * k.val = k.val; rw [e01]; omega

/-- The weights' block is the whole weight matrix. -/
theorem wblk1_apply (c : Dev nD) (t : Fin cfg1.N) (k : Fin 64) (j : Fin 40) : wblk1 V c t (ix2 k j) = wgt1 V c (ix2 k j) := by
  obtain ⟨-, -, e10, e11, -⟩ := idx1 t
  show wgt1 V c (((cfg1.win 1).blk t).view.emb (ix2 k j)) = wgt1 V c (ix2 k j)
  refine congrArg (wgt1 V c) (funext fun a => Fin.ext ?_)
  match a with
  | ⟨0, _⟩ => show win1_1.index t (0 : Fin 2) * 64 + 1 * k.val = k.val; rw [e10]; omega
  | ⟨1, _⟩ => show win1_1.index t (1 : Fin 2) * 40 + 1 * j.val = j.val; rw [e11]; omega

/-- The bias' block is the whole bias. -/
theorem bblk1_apply (c : Dev nD) (t : Fin cfg1.N) (j : Fin 40) : bblk1 V c t (ix1 j) = bias1 V c (ix1 j) := by
  obtain ⟨-, -, -, -, e20, -⟩ := idx1 t
  show bias1 V c (((cfg1.win 2).blk t).view.emb (ix1 j)) = bias1 V c (ix1 j)
  refine congrArg (bias1 V c) (funext fun a => Fin.ext ?_)
  match a with
  | ⟨0, _⟩ => show win1_2.index t (0 : Fin 1) * 40 + 1 * j.val = j.val; rw [e20]; omega

/-- What point `t` writes back is block `t` of the second layer of the whole hidden-feature matrix. -/
theorem flushed1 (c : Dev nD) (t : Fin cfg1.N) :
    (dat1 V c).flushed 3 t = ((cfg1.win 3).blk t).view.read (Elt Ideal)
      (logSoftmaxLayer (N := 100000) (K := 64) (C := 40) (feat1 V c) (wgt1 V c) (bias1 V c)) := by
  show (cfg1.win 3).cut (grid1.coords t) ((dat1 V c).after 3 t) = _
  rw [after1_3]
  unfold out1_3
  rw [View.canon_unit_zero hz2]
  simp only [View.ld_unit_zero (S := S4000x64) hz2, View.ld_unit_zero (S := S64x40) hz2, View.ld_unit_zero (S := S40) hz1]
  rw [pay1_eq]
  obtain ⟨-, -, -, -, -, e30, e31⟩ := idx1 t
  have ht : t.val < 25 := lt_of_lt_of_eq t.isLt N_1
  funext j
  obtain ⟨p, q, rfl⟩ : ∃ (p : Fin 4000) (q : Fin 40), j = ix2 p q := ⟨j 0, j 1, eq_ix2 j⟩
  have hemb : ((cfg1.win 3).blk t).view.emb (ix2 p q)
      = ix2 (⟨t.val * 4000 + p.val, by have := p.isLt; omega⟩ : Fin 100000) q := by
    funext a; apply Fin.ext
    match a with
    | ⟨0, _⟩ => show win1_3.index t (0 : Fin 2) * 4000 + 1 * p.val = t.val * 4000 + p.val; rw [e30]; omega
    | ⟨1, _⟩ => show win1_3.index t (1 : Fin 2) * 40 + 1 * q.val = q.val; rw [e31]; omega
  show logSoftmaxLayer (N := 4000) (xblk1 V c t) (wblk1 V c t) (bblk1 V c t) (ix2 p q)
    = logSoftmaxLayer (N := 100000) (feat1 V c) (wgt1 V c) (bias1 V c) (((cfg1.win 3).blk t).view.emb (ix2 p q))
  rw [hemb]
  exact logSoftmaxLayer_congr _ _ _ _ _ _ p _ q (fun k => xblk1_apply V c t p k _ rfl) (fun k j => wblk1_apply V c t k j)
    (fun j => bblk1_apply V c t j)

/-- An index of the output array is in point `t`'s block iff each coordinate is in the block's range on its axis. -/
theorem mem_blk1 (t : Fin cfg1.N) (i : S100000x40.Idx) :
    i ∈ ((cfg1.win 3).blk t).view.set ↔ ∀ a : Fin 2, win1_3.index t a * S4000x40.size a ≤ (i a).val
      ∧ (i a).val < win1_3.index t a * S4000x40.size a + S4000x40.size a := by
  show i ∈ ((View.whole main_v83).slice (win1_3.rect t)).set ↔ _
  rw [View.set_slice_whole, Rect.mem_set_unit]
  exact Iff.rfl

/-- Row `r` of the output lies in block `r / 4000`: the 25 blocks cover the array. -/
theorem cover1 (i : S100000x40.Idx) : ∃ t : Fin cfg1.N, (cfg1.win 3).flush t = true ∧ i ∈ ((cfg1.win 3).blk t).view.set := by
  have hi0 : (i 0).val < 100000 := (i 0).isLt
  have hi1 : (i 1).val < 40 := (i 1).isLt
  obtain ⟨t, ht⟩ : ∃ t : Fin cfg1.N, t.val = (i 0).val / 4000 :=
    ⟨⟨(i 0).val / 4000, lt_of_lt_of_eq (by omega : (i 0).val / 4000 < 25) N_1.symm⟩, rfl⟩
  obtain ⟨-, -, -, -, -, e30, e31⟩ := idx1 t
  refine ⟨t, flush1_3 t, ?_⟩
  rw [mem_blk1]
  intro a
  match a with
  | ⟨0, _⟩ =>
    show win1_3.index t (0 : Fin 2) * 4000 ≤ (i 0).val ∧ (i 0).val < win1_3.index t (0 : Fin 2) * 4000 + 4000
    rw [e30, ht]; omega
  | ⟨1, _⟩ =>
    show win1_3.index t (1 : Fin 2) * 40 ≤ (i 1).val ∧ (i 1).val < win1_3.index t (1 : Fin 2) * 40 + 40
    rw [e31]; omega

/-- Region 1's output array ends holding the second layer of the hidden features it was entered with. -/
theorem final1 (c : Dev nD) : (dat1 V c).arrAt 3 cfg1.N
    = logSoftmaxLayer (N := 100000) (K := 64) (C := 40) (feat1 V c) (wgt1 V c) (bias1 V c) :=
  (dat1 V c).arrAt_eq_of_cover 3 _ (fun t _ => flushed1 V c t) (cover1)

end Cert.KernelIdeal.RegionValue

end
-- ==== Proof.KernelHost.lean ====
/-
  The kernel program's own host stretches compute what the reference's corresponding operations compute: the two index
  vectors, the edge weights, the input features propagated twice (before the first region), and the hidden features
  propagated twice (between the regions). Each stretch is folded from ANY buffer contents that hold, at the few
  buffers it reads, the reference's stage values; what it leaves at the buffer a region (or the next stretch) reads is
  then the reference's stage, the very same operations applied to the same values.
-/
import proofs.«139089_j33801392619927_1_alg».proof.Proof.Gen.KernelIdeal.Frame
import proofs.«139089_j33801392619927_1_alg».proof.Proof.RefRead

set_option maxRecDepth 16384

noncomputable section

namespace Cert.KernelIdeal.HostValue

open Cert.KernelIdeal Cert.KernelIdeal.Gen Idealize.ShloMosaic Idealize.ShloMosaic.TcCoe Idealize.SL.Sem Idealize.ShloMosaic.StableHlo
open Cert.ReferenceIdeal.ReadP

variable {F : FTy → Type} [FloatOps F]

/-- The operations that build the two index vectors. -/
abbrev opsKA : List (HloOp τ sig (Elt F)) := (hostOps0 (F := F)).take 7
/-- The edge weights and the first two propagations. -/
abbrev opsKB : List (HloOp τ sig (Elt F)) := (hostOps0 (F := F)).drop 7 ++ (hostOps0_1 ++ hostOps0_2)

variable (V : Valuation τ sig (Elt F))

/-- The three stretches before the first region, regrouped into the two windows. -/
theorem pre_eq : after opsKB (after opsKA V) = after hostOps0_2 (after hostOps0_1 (after hostOps0 V)) := by
  unfold opsKA opsKB
  rw [← StableHlo.after_append, ← List.append_assoc, List.take_append_drop, StableHlo.after_append, StableHlo.after_append]

/-! ## The index vectors -/

theorem srcKA (x1 : (⟨S2x1600000, .i32⟩ : BufTy).Contents (Elt F)) (h1 : V (Proc.devRef .tc main_arg1) = x1) :
    after opsKA V (Proc.devRef .tc main_v5) = val_main_v5 (F := F) x1 := by
  simp only [opsKA, hostOps0, List.take_succ_cons, List.take_zero]
  after_results
  rw [h1]
  unfold val_main_v5 val_main_v4 val_main_v1 val_main_v0
  rfl

theorem dstKA (x1 : (⟨S2x1600000, .i32⟩ : BufTy).Contents (Elt F)) (h1 : V (Proc.devRef .tc main_arg1) = x1) :
    after opsKA V (Proc.devRef .tc main_v6) = val_main_v6 (F := F) x1 := by
  simp only [opsKA, hostOps0, List.take_succ_cons, List.take_zero]
  after_results
  rw [h1]
  unfold val_main_v6 val_main_v4 val_main_v3 val_main_v2
  rfl

/-- The first window writes none of the arguments. -/
theorem keepKA (r : Ref sig .tc) (hr : r = main_arg0 ∨ r = main_arg2 ∨ r = main_arg3 ∨ r = main_arg4 ∨ r = main_arg5) :
    after opsKA V (Proc.devRef .tc r) = V (Proc.devRef .tc r) := by
  simp only [opsKA, hostOps0, List.take_succ_cons, List.take_zero]
  rcases hr with rfl | rfl | rfl | rfl | rfl <;> after_results_simp

/-! ## The edge weights and the first two propagations -/

theorem normKB (x1 : (⟨S2x1600000, .i32⟩ : BufTy).Contents (Elt F)) (h5 : V (Proc.devRef .tc main_v5) = val_main_v5 (F := F) x1)
    (h6 : V (Proc.devRef .tc main_v6) = val_main_v6 (F := F) x1) :
    after opsKB V (Proc.devRef .tc main_v29) = val_main_v29 (F := F) x1 := by
  simp only [opsKB, hostOps0, hostOps0_1, hostOps0_2, List.drop_succ_cons, List.drop_zero, List.cons_append, List.nil_append]
  after_results_simp
  try simp only [TRef.ofBuf, TRef.toBuf, cast_eq]
  simp only [h5, h6]
  unfold
    val_main_v29 val_main_v28 val_main_v27 val_main_v26 val_main_v25 val_main_v24 val_main_c_5 val_main_v23 val_main_v22 val_main_c_4 val_main_v21
    val_main_v20 val_main_v19 val_main_v18 val_main_v17 val_main_c_3 val_main_v16 val_main_v15 val_main_c val_main_v14 val_main_call0_v1
    val_main_call0_v0 val_main_cst_2 val_main_v13 val_main_v12 val_main_v11 val_main_cst_1 val_main_v10 val_main_v9 val_main_v8 val_main_cst_0
    val_main_v7 val_main_cst
  rfl

theorem propKB (x0 : (⟨S100000x128, .f32⟩ : BufTy).Contents (Elt F)) (x1 : (⟨S2x1600000, .i32⟩ : BufTy).Contents (Elt F)) (h0 : V (Proc.devRef .tc main_arg0) = x0)
    (h5 : V (Proc.devRef .tc main_v5) = val_main_v5 (F := F) x1) (h6 : V (Proc.devRef .tc main_v6) = val_main_v6 (F := F) x1) :
    after opsKB V (Proc.devRef .tc main_v55) = val_main_v55 (F := F) x0 x1 := by
  simp only [opsKB, hostOps0, hostOps0_1, hostOps0_2, List.drop_succ_cons, List.drop_zero, List.cons_append, List.nil_append]
  after_results_simp
  try simp only [TRef.ofBuf, TRef.toBuf, cast_eq]
  simp only [h0, h5, h6]
  unfold
    val_main_v55 val_main_v54 val_main_v53 val_main_cst_11 val_main_v52 val_main_v51 val_main_v50 val_main_v49 val_main_v48 val_main_v47 val_main_v46
    val_main_v45 val_main_c_10 val_main_v44 val_main_v43 val_main_c_9 val_main_v42 val_main_v41 val_main_v40 val_main_cst_8 val_main_v39 val_main_v38
    val_main_v37 val_main_v36 val_main_v35 val_main_v34 val_main_v33 val_main_v32 val_main_c_7 val_main_v31 val_main_v30 val_main_c_6 val_main_v29
    val_main_v28 val_main_v27 val_main_v26 val_main_v25 val_main_v24 val_main_c_5 val_main_v23 val_main_v22 val_main_c_4 val_main_v21 val_main_v20
    val_main_v19 val_main_v18 val_main_v17 val_main_c_3 val_main_v16 val_main_v15 val_main_c val_main_v14 val_main_call0_v1 val_main_call0_v0
    val_main_cst_2 val_main_v13 val_main_v12 val_main_v11 val_main_cst_1 val_main_v10 val_main_v9 val_main_v8 val_main_cst_0 val_main_v7 val_main_cst
  rfl

/-- The second window writes neither the index vectors nor the layers' parameters. -/
theorem keepKB (r : Ref sig .tc) (hr : r = main_v5 ∨ r = main_v6 ∨ r = main_arg2 ∨ r = main_arg3 ∨ r = main_arg4 ∨ r = main_arg5) :
    after opsKB V (Proc.devRef .tc r) = V (Proc.devRef .tc r) := by
  simp only [opsKB, hostOps0, hostOps0_1, hostOps0_2, List.drop_succ_cons, List.drop_zero, List.cons_append, List.nil_append]
  rcases hr with rfl | rfl | rfl | rfl | rfl | rfl <;> after_results_simp

/-! ## The stretch between the regions: two further propagations -/

/-- From the first region's output (the reference's relu stage) the stretch leaves the reference's twice-propagated
    hidden features at the second region's input. -/
theorem hopKD (x0 : (⟨S100000x128, .f32⟩ : BufTy).Contents (Elt F)) (x1 : (⟨S2x1600000, .i32⟩ : BufTy).Contents (Elt F)) (x2 : (⟨S128x64, .f32⟩ : BufTy).Contents (Elt F)) (x3 : (⟨S64, .f32⟩ : BufTy).Contents (Elt F))
    (h56 : V (Proc.devRef .tc main_v56) = val_main_v60 (F := F) x0 x1 x2 x3) (h29 : V (Proc.devRef .tc main_v29) = val_main_v29 (F := F) x1)
    (h5 : V (Proc.devRef .tc main_v5) = val_main_v5 (F := F) x1) (h6 : V (Proc.devRef .tc main_v6) = val_main_v6 (F := F) x1) :
    after hostOps1 V (Proc.devRef .tc main_v82) = val_main_v86 (F := F) x0 x1 x2 x3 := by
  simp only [hostOps1]
  after_results_simp
  simp only [h56, h29, h5, h6]
  unfold
    val_main_v86 val_main_v85 val_main_v84 val_main_cst_17 val_main_v83 val_main_v82 val_main_v81 val_main_v80 val_main_v79 val_main_v78 val_main_v77
    val_main_v76 val_main_c_16 val_main_v75 val_main_v74 val_main_c_15 val_main_v73 val_main_v72 val_main_v71 val_main_cst_14 val_main_v70
    val_main_v69 val_main_v68 val_main_v67 val_main_v66 val_main_v65 val_main_v64 val_main_v63 val_main_c_13 val_main_v62 val_main_v61 val_main_c_12
  rfl

/-- The stretch writes neither of the second layer's parameters. -/
theorem keepKD (r : Ref sig .tc) (hr : r = main_arg4 ∨ r = main_arg5) :
    after hostOps1 V (Proc.devRef .tc r) = V (Proc.devRef .tc r) := by
  simp only [hostOps1]
  rcases hr with rfl | rfl <;> after_results_simp

end Cert.KernelIdeal.HostValue

end
-- ==== Proof.RefDense.lean ====
/-
  The reference's two dense stretches, read stage by stage at an entry (p, q), are the two layers of the whole
  100000-row matrices: the host's matrix product is the plain sum over the contracted axis, the bias vector is spread
  over the rows, relu is the maximum with 0.0; the host's row maximum from minus infinity is the fold of max over the
  row's 40 entries (its extra maximum with a broadcast minus infinity changes nothing), and the host's row sum from 0.0
  is the plain sum.
-/
import proofs.«139089_j33801392619927_1_alg».proof.Proof.RefRead
import proofs.«139089_j33801392619927_1_alg».proof.Proof.LibColumn
import proofs.«139089_j33801392619927_1_alg».proof.Proof.Layers

noncomputable section

namespace Cert.ReferenceIdeal.Dense

open Idealize.ShloMosaic Idealize.ShloMosaic.ValueIdx Idealize.ShloMosaic.ColumnForms Cert.ReferenceIdeal Cert.ReferenceIdeal.Gen Cert.ReferenceIdeal.ReadP Cert.Layers

variable (x0 : (⟨S100000x128, .f32⟩ : BufTy).Contents (Elt Ideal)) (x1 : (⟨S2x1600000, .i32⟩ : BufTy).Contents (Elt Ideal))
  (x2 : (⟨S128x64, .f32⟩ : BufTy).Contents (Elt Ideal)) (x3 : (⟨S64, .f32⟩ : BufTy).Contents (Elt Ideal))
  (x4 : (⟨S64x40, .f32⟩ : BufTy).Contents (Elt Ideal)) (x5 : (⟨S40, .f32⟩ : BufTy).Contents (Elt Ideal))

/-! ## The first dense stretch -/

theorem lidx56 (p : Fin 100000) (q : Fin 64) (k : Fin 128) : lidx_main_v56 (ix2 p q) k = ix2 p k :=
  funext fun a => Fin.ext (by match a with | ⟨0, _⟩ => rfl | ⟨1, _⟩ => rfl)
theorem ridx56 (p : Fin 100000) (q : Fin 64) (k : Fin 128) : ridx_main_v56 (ix2 p q) k = ix2 k q :=
  funext fun a => Fin.ext (by match a with | ⟨0, _⟩ => rfl | ⟨1, _⟩ => rfl)
theorem idx57_58 (p : Fin 100000) (q : Fin 64) : idx_main_v57 (idx_main_v58 (ix2 p q)) = ix1 q :=
  funext fun a => Fin.ext (by match a with | ⟨0, _⟩ => rfl)

/-- The reference's relu stage is the first layer of the propagated features. -/
theorem relu_stage : val_main_v60 (F := Ideal) x0 x1 x2 x3
    = reluLayer (N := 100000) (K := 128) (C := 64) (val_main_v55 (F := Ideal) x0 x1) x2 x3 := by
  funext j
  obtain ⟨p, q, rfl⟩ : ∃ (p : Fin 100000) (q : Fin 64), j = ix2 p q := ⟨j 0, j 1, eq_ix2 j⟩
  rw [val_main_v60_apply, val_main_v59_apply, val_main_v56_apply, val_main_v58_apply, val_main_v57_apply,
    val_main_call1_v0_apply, val_main_call1_cst_apply, reluLayer_apply]
  simp only [lidx56, ridx56, idx57_58]
  rfl

/-! ## The second dense stretch -/

theorem lidx87 (p : Fin 100000) (q : Fin 40) (k : Fin 64) : lidx_main_v87 (ix2 p q) k = ix2 p k :=
  funext fun a => Fin.ext (by match a with | ⟨0, _⟩ => rfl | ⟨1, _⟩ => rfl)
theorem ridx87 (p : Fin 100000) (q : Fin 40) (k : Fin 64) : ridx_main_v87 (ix2 p q) k = ix2 k q :=
  funext fun a => Fin.ext (by match a with | ⟨0, _⟩ => rfl | ⟨1, _⟩ => rfl)
theorem idx88_89 (p : Fin 100000) (q : Fin 40) : idx_main_v88 (idx_main_v89 (ix2 p q)) = ix1 q :=
  funext fun a => Fin.ext (by match a with | ⟨0, _⟩ => rfl)

/-- Row `p` of the second affine stage. -/
abbrev yrow (p : Fin 100000) : Fin 40 → EReal :=
  affineRow (rowOf (N := 100000) (val_main_v86 (F := Ideal) x0 x1 x2 x3) p) x4 x5

theorem affine_stage (p : Fin 100000) (k : Fin 40) :
    val_main_v90 (F := Ideal) x0 x1 x2 x3 x4 x5 (ix2 p k) = yrow x0 x1 x2 x3 x4 x5 p k := by
  rw [val_main_v90_apply, val_main_v87_apply, val_main_v89_apply, val_main_v88_apply]
  simp only [lidx87, ridx87, idx88_89]
  rfl

/-- Dropping axis 1 of a `[100000, 40]` array leaves the 100000 rows. -/
theorem reduces_rows : S100000x40.Reduces [1] S100000 := by decide

/-- The host's row maximum from minus infinity of ANY `[100000, 40]` array whose row `p` is `y`: the fold of `max` over `y`. -/
theorem hostRowMax (Y : FVec Ideal S100000x40 .f32) (y : Fin 40 → EReal) (p : Fin 100000) (hY : ∀ k : Fin 40, Y (ix2 p k) = y k) :
    Host.reduce (FloatOps.maximumf (F := Ideal) (φ := .f32)) Y (constant (F := Ideal) S_ .f32 0xFF800000#32)
      reducesTo_S100000x40_S100000_d1 h_S_ (ix1 p) = rowMax y := by
  refine (Host.reduce_eq_fold_single (FloatOps.maximumf (F := Ideal) (φ := .f32)) Y (constant (F := Ideal) S_ .f32 0xFF800000#32)
    reducesTo_S100000x40_S100000_d1 reduces_rows h_S_ (ix1 p)).trans ?_
  have hf : (Y ∘ reduces_rows.lift (ix1 p)) = y :=
    funext fun k => (congrArg Y (lift_axis1 reduces_rows p k)).trans (hY ⟨k.val, k.isLt⟩)
  rw [hf]
  rfl

/-- The host's row maximum (with its extra maximum against minus infinity) is the row's maximum. -/
theorem rowMax_stage (p : Fin 100000) :
    val_main_call2_v2 (F := Ideal) x0 x1 x2 x3 x4 x5 (ix1 p) = rowMax (yrow x0 x1 x2 x3 x4 x5 p) := by
  rw [val_main_call2_v2_apply, val_main_call2_v1_apply, val_main_call2_cst_0_apply, Ideal.maximumf_def, Ideal.ofBits_def, max_negInf]
  unfold val_main_call2_v0 val_main_call2_cst
  exact hostRowMax _ _ p (affine_stage x0 x1 x2 x3 x4 x5 p)

theorem idx3_4 (p : Fin 100000) (q : Fin 40) : idx_main_call2_v3 (idx_main_call2_v4 (ix2 p q)) = ix1 p :=
  funext fun a => Fin.ext (by match a with | ⟨0, _⟩ => rfl)

theorem shift_stage (p : Fin 100000) (q : Fin 40) :
    val_main_call2_v5 (F := Ideal) x0 x1 x2 x3 x4 x5 (ix2 p q) = shifted (yrow x0 x1 x2 x3 x4 x5 p) q := by
  rw [val_main_call2_v5_apply, val_main_call2_v4_apply, val_main_call2_v3_apply, idx3_4, rowMax_stage, affine_stage, Ideal.subf_def]
  unfold shifted
  exact Eq.refl _

theorem idx7 (p : Fin 100000) (k : Fin 40) : idx_main_call2_v7 (ix1 p) k = ix2 p k :=
  funext fun a => Fin.ext (by match a with | ⟨0, _⟩ => rfl | ⟨1, _⟩ => rfl)
theorem idx8_10 (p : Fin 100000) (q : Fin 40) : idx_main_call2_v8 (idx_main_call2_v10 (ix2 p q)) = ix1 p :=
  funext fun a => Fin.ext (by match a with | ⟨0, _⟩ => rfl)

theorem sum_stage (p : Fin 100000) :
    val_main_call2_v7 (F := Ideal) x0 x1 x2 x3 x4 x5 (ix1 p)
      = ∑ k : Fin 40, Ideal.exp (shifted (yrow x0 x1 x2 x3 x4 x5 p) k) := by
  rw [val_main_call2_v7_apply, val_main_call2_cst_1_apply]
  show Ideal.ofBits .f32 0x00000000#32 + _ = _
  rw [Ideal.ofBits_zero_f32, zero_add]
  refine Finset.sum_congr rfl fun k _ => ?_
  rw [idx7, val_main_call2_v6_apply, shift_stage, Ideal.hostUnary_exp_def]

/-- The reference's result is the second layer of the twice-propagated hidden features. -/
theorem logSoftmax_stage : val_main_v91 (F := Ideal) x0 x1 x2 x3 x4 x5
    = logSoftmaxLayer (N := 100000) (K := 64) (C := 40) (val_main_v86 (F := Ideal) x0 x1 x2 x3) x4 x5 := by
  funext j
  obtain ⟨p, q, rfl⟩ : ∃ (p : Fin 100000) (q : Fin 40), j = ix2 p q := ⟨j 0, j 1, eq_ix2 j⟩
  rw [val_main_v91_apply, val_main_call2_v10_apply, val_main_call2_v9_apply, val_main_call2_v8_apply, idx8_10, sum_stage,
    shift_stage, logSoftmaxLayer_apply, Ideal.subf_def, Ideal.hostUnary_log_def]
  unfold logSoftmaxRow
  exact Eq.refl _

end Cert.ReferenceIdeal.Dense

end
-- ==== Proof.KernelValue.lean ====
/-
  The idealized kernel's result, as a function of its arguments: the reference's last stage of the same arguments.
  Walked from the launch: the stretches before the first region leave the index vectors, the edge weights and the
  twice-propagated input features (the reference's stages); region 0 leaves the first layer of those features, which is
  the reference's relu stage; the stretch between the regions propagates it twice more (the reference's stage again);
  region 1 leaves the second layer of that, which is the reference's log-softmax stage, its result.
-/
import proofs.«139089_j33801392619927_1_alg».proof.Proof.KernelRegions
import proofs.«139089_j33801392619927_1_alg».proof.Proof.KernelHost
import proofs.«139089_j33801392619927_1_alg».proof.Proof.RefDense

set_option maxRecDepth 16384

noncomputable section

namespace Cert.KernelIdeal.OutValue

open Cert.KernelIdeal Cert.KernelIdeal.Gen Idealize.ShloMosaic Idealize.ShloMosaic.TcCoe Idealize.SL.Sem Idealize.ShloMosaic.StableHlo
open Cert.KernelIdeal.HostValue Cert.KernelIdeal.RegionValue Cert.Layers
open Cert.ReferenceIdeal.ReadP

variable (m : (ℓ : Loc nD τ sig) → Buf (Elt Ideal) ℓ) (ρ : Dev nD → PrngReg) (c : Dev nD)

/-- The contents at the first region's entry, as the two windows' fold from the launch contents. -/
theorem entry0_eq : W3 m ρ c = after opsKB (after opsKA (W0 m ρ c)) := (pre_eq (W0 m ρ c)).symm

theorem src0 : after opsKA (W0 m ρ c) (Proc.devRef .tc main_v5) = val_main_v5 (F := Ideal) (m ((c : Thread nD τ).loc main_arg1)) :=
  srcKA (W0 m ρ c) _ rfl
theorem dst0 : after opsKA (W0 m ρ c) (Proc.devRef .tc main_v6) = val_main_v6 (F := Ideal) (m ((c : Thread nD τ).loc main_arg1)) :=
  dstKA (W0 m ρ c) _ rfl

/-! ## At the first region's entry -/

theorem entry0_src : W3 m ρ c (Proc.devRef .tc main_v5) = val_main_v5 (F := Ideal) (m ((c : Thread nD τ).loc main_arg1)) := by
  rw [entry0_eq]; exact (keepKB _ main_v5 (.inl rfl)).trans (src0 m ρ c)
theorem entry0_dst : W3 m ρ c (Proc.devRef .tc main_v6) = val_main_v6 (F := Ideal) (m ((c : Thread nD τ).loc main_arg1)) := by
  rw [entry0_eq]; exact (keepKB _ main_v6 (.inr (.inl rfl))).trans (dst0 m ρ c)
theorem entry0_norm : W3 m ρ c (Proc.devRef .tc main_v29) = val_main_v29 (F := Ideal) (m ((c : Thread nD τ).loc main_arg1)) := by
  rw [entry0_eq]; exact normKB _ _ (src0 m ρ c) (dst0 m ρ c)
theorem entry0_feat : W3 m ρ c (Proc.devRef .tc main_v55)
    = val_main_v55 (F := Ideal) (m ((c : Thread nD τ).loc main_arg0)) (m ((c : Thread nD τ).loc main_arg1)) := by
  rw [entry0_eq]; exact propKB _ _ _ (keepKA (W0 m ρ c) main_arg0 (.inl rfl)) (src0 m ρ c) (dst0 m ρ c)
theorem entry0_arg2 : W3 m ρ c (Proc.devRef .tc main_arg2) = m ((c : Thread nD τ).loc main_arg2) := by
  rw [entry0_eq]; exact (keepKB _ main_arg2 (.inr (.inr (.inl rfl)))).trans (keepKA (W0 m ρ c) main_arg2 (.inr (.inl rfl)))
theorem entry0_arg3 : W3 m ρ c (Proc.devRef .tc main_arg3) = m ((c : Thread nD τ).loc main_arg3) := by
  rw [entry0_eq]; exact (keepKB _ main_arg3 (.inr (.inr (.inr (.inl rfl))))).trans (keepKA (W0 m ρ c) main_arg3 (.inr (.inr (.inl rfl))))
theorem entry0_arg4 : W3 m ρ c (Proc.devRef .tc main_arg4) = m ((c : Thread nD τ).loc main_arg4) := by
  rw [entry0_eq]; exact (keepKB _ main_arg4 (.inr (.inr (.inr (.inr (.inl rfl)))))).trans (keepKA (W0 m ρ c) main_arg4 (.inr (.inr (.inr (.inl rfl)))))
theorem entry0_arg5 : W3 m ρ c (Proc.devRef .tc main_arg5) = m ((c : Thread nD τ).loc main_arg5) := by
  rw [entry0_eq]; exact (keepKB _ main_arg5 (.inr (.inr (.inr (.inr (.inr (rfl))))))).trans (keepKA (W0 m ρ c) main_arg5 (.inr (.inr (.inr (.inr (rfl))))))

/-! ## At the first region's exit -/

/-- Region 0's output is the reference's relu stage. -/
theorem exit0_hidden : W4 m ρ c (Proc.devRef .tc main_v56)
    = val_main_v60 (F := Ideal) (m ((c : Thread nD τ).loc main_arg0)) (m ((c : Thread nD τ).loc main_arg1))
        (m ((c : Thread nD τ).loc main_arg2)) (m ((c : Thread nD τ).loc main_arg3)) := by
  refine (W4_arr m ρ c 3).trans ((final0 (V3 m ρ) c).trans ?_)
  show reluLayer (N := 100000) (K := 128) (C := 64) (W3 m ρ c (Proc.devRef .tc main_v55)) (W3 m ρ c (Proc.devRef .tc main_arg2))
    (W3 m ρ c (Proc.devRef .tc main_arg3)) = _
  rw [entry0_feat, entry0_arg2, entry0_arg3]
  exact (Cert.ReferenceIdeal.Dense.relu_stage _ _ _ _).symm

theorem exit0_src : W4 m ρ c (Proc.devRef .tc main_v5) = val_main_v5 (F := Ideal) (m ((c : Thread nD τ).loc main_arg1)) :=
  (W4_of_ne m ρ c main_v5 (by decide)).trans (entry0_src m ρ c)
theorem exit0_dst : W4 m ρ c (Proc.devRef .tc main_v6) = val_main_v6 (F := Ideal) (m ((c : Thread nD τ).loc main_arg1)) :=
  (W4_of_ne m ρ c main_v6 (by decide)).trans (entry0_dst m ρ c)
theorem exit0_norm : W4 m ρ c (Proc.devRef .tc main_v29) = val_main_v29 (F := Ideal) (m ((c : Thread nD τ).loc main_arg1)) :=
  (W4_of_ne m ρ c main_v29 (by decide)).trans (entry0_norm m ρ c)
theorem exit0_arg4 : W4 m ρ c (Proc.devRef .tc main_arg4) = m ((c : Thread nD τ).loc main_arg4) :=
  (W4_of_ne m ρ c main_arg4 (by decide)).trans (entry0_arg4 m ρ c)
theorem exit0_arg5 : W4 m ρ c (Proc.devRef .tc main_arg5) = m ((c : Thread nD τ).loc main_arg5) :=
  (W4_of_ne m ρ c main_arg5 (by decide)).trans (entry0_arg5 m ρ c)

/-! ## At the second region's entry and exit -/

theorem entry1_feat : W5 m ρ c (Proc.devRef .tc main_v82)
    = val_main_v86 (F := Ideal) (m ((c : Thread nD τ).loc main_arg0)) (m ((c : Thread nD τ).loc main_arg1))
        (m ((c : Thread nD τ).loc main_arg2)) (m ((c : Thread nD τ).loc main_arg3)) :=
  hopKD (W4 m ρ c) _ _ _ _ (exit0_hidden m ρ c) (exit0_norm m ρ c) (exit0_src m ρ c) (exit0_dst m ρ c)
theorem entry1_arg4 : W5 m ρ c (Proc.devRef .tc main_arg4) = m ((c : Thread nD τ).loc main_arg4) :=
  (keepKD (W4 m ρ c) main_arg4 (.inl rfl)).trans (exit0_arg4 m ρ c)
theorem entry1_arg5 : W5 m ρ c (Proc.devRef .tc main_arg5) = m ((c : Thread nD τ).loc main_arg5) :=
  (keepKD (W4 m ρ c) main_arg5 (.inr rfl)).trans (exit0_arg5 m ρ c)

/-- The result buffer at the last boundary is the reference's last stage of the launch arguments. -/
theorem out_eq : W6 m ρ c (Proc.devRef .tc main_v83)
    = val_main_v91 (F := Ideal) (m ((c : Thread nD τ).loc main_arg0)) (m ((c : Thread nD τ).loc main_arg1))
        (m ((c : Thread nD τ).loc main_arg2)) (m ((c : Thread nD τ).loc main_arg3))
        (m ((c : Thread nD τ).loc main_arg4)) (m ((c : Thread nD τ).loc main_arg5)) := by
  refine (W6_arr m ρ c 3).trans ((final1 (V5 m ρ) c).trans ?_)
  show logSoftmaxLayer (N := 100000) (K := 64) (C := 40) (W5 m ρ c (Proc.devRef .tc main_v82)) (W5 m ρ c (Proc.devRef .tc main_arg4))
    (W5 m ρ c (Proc.devRef .tc main_arg5)) = _
  rw [entry1_feat, entry1_arg4, entry1_arg5]
  exact (Cert.ReferenceIdeal.Dense.logSoftmax_stage _ _ _ _ _ _).symm

end Cert.KernelIdeal.OutValue

end
-- ==== Proof.RefValue.lean ====
/-
  The reference's 130 host operations, read in five windows: the 7 that build the two index vectors (each edge's
  source and target, with one self-loop per node appended), the 65 that build the edge weights and propagate the
  input features twice, the 7 of the first dense stretch, the 36 of the two further propagations with the second
  product and bias, and the 15 of the row-wise log-softmax. A
  window's operations are folded from ANY buffer contents that hold, at the few buffers the window reads, the values
  the earlier windows left; so no window's term repeats an earlier window's. The whole fold at the result buffer is
  then the last stage of the stage-by-stage reading.
-/
import proofs.«139089_j33801392619927_1_alg».proof.Proof.RefRead
import Idealize.ShloMosaic.Lib.Pipeline.Frame

set_option maxRecDepth 16384

noncomputable section

namespace Cert.ReferenceIdeal.RefValue

open Cert.ReferenceIdeal Cert.ReferenceIdeal.Gen Idealize.ShloMosaic Idealize.ShloMosaic.TcCoe Idealize.SL.Sem Idealize.ShloMosaic.StableHlo
open Cert.ReferenceIdeal.ValueP Cert.ReferenceIdeal.ReadP

variable {F : FTy → Type} [FloatOps F]

/-- Contents carried to a typed reference's buffer type and back are the contents. -/
theorem ofBuf_toBuf {T : BufTy} (x : TRef sig T) (v : T.Contents (Elt F)) : x.ofBuf (x.toBuf v) = v := by
  obtain ⟨r, h, hd, hu⟩ := x
  subst h
  rfl

/-- The operations that build the two index vectors. -/
abbrev opsA : List (HloOp τ sig (Elt F)) := (ops (F := F)).take 7
/-- The edge weights and the first two propagations. -/
abbrev opsB : List (HloOp τ sig (Elt F)) := ((ops (F := F)).drop 7).take 65
/-- The first dense stretch: product, bias, relu. -/
abbrev opsC : List (HloOp τ sig (Elt F)) := (((ops (F := F)).drop 7).drop 65).take 7
/-- The two further propagations and the second product and bias. -/
abbrev opsD : List (HloOp τ sig (Elt F)) := ((((ops (F := F)).drop 7).drop 65).drop 7).take 36
/-- The row-wise log-softmax. -/
abbrev opsE : List (HloOp τ sig (Elt F)) := ((((ops (F := F)).drop 7).drop 65).drop 7).drop 36

theorem ops_eq : (ops : List (HloOp τ sig (Elt F))) = opsA ++ (opsB ++ (opsC ++ (opsD ++ opsE))) := by
  unfold opsA opsB opsC opsD opsE
  rw [List.take_append_drop, List.take_append_drop, List.take_append_drop, List.take_append_drop]

variable (V : Valuation τ sig (Elt F))

/-! ## The index vectors -/

theorem srcA (x1 : (⟨S2x1600000, .i32⟩ : BufTy).Contents (Elt F)) (h1 : V (Proc.devRef .tc main_arg1) = x1) :
    after opsA V (Proc.devRef .tc main_v5) = val_main_v5 (F := F) x1 := by
  simp only [opsA, opsB, opsC, opsD, opsE, ops, List.take_succ_cons, List.take_zero, List.drop_succ_cons, List.drop_zero]
  after_results
  rw [h1]
  unfold val_main_v5 val_main_v4 val_main_v1 val_main_v0
  rfl

theorem dstA (x1 : (⟨S2x1600000, .i32⟩ : BufTy).Contents (Elt F)) (h1 : V (Proc.devRef .tc main_arg1) = x1) :
    after opsA V (Proc.devRef .tc main_v6) = val_main_v6 (F := F) x1 := by
  simp only [opsA, opsB, opsC, opsD, opsE, ops, List.take_succ_cons, List.take_zero, List.drop_succ_cons, List.drop_zero]
  after_results
  rw [h1]
  unfold val_main_v6 val_main_v4 val_main_v3 val_main_v2
  rfl

/-- The first window writes none of the arguments. -/
theorem keepA (r : Ref sig .tc) (hr : r = main_arg0 ∨ r = main_arg2 ∨ r = main_arg3 ∨ r = main_arg4 ∨ r = main_arg5) :
    after opsA V (Proc.devRef .tc r) = V (Proc.devRef .tc r) := by
  simp only [opsA, opsB, opsC, opsD, opsE, ops, List.take_succ_cons, List.take_zero, List.drop_succ_cons, List.drop_zero]
  rcases hr with rfl | rfl | rfl | rfl | rfl <;> after_results_simp

/-! ## The edge weights and the first two propagations -/

theorem normB (x1 : (⟨S2x1600000, .i32⟩ : BufTy).Contents (Elt F)) (h5 : V (Proc.devRef .tc main_v5) = val_main_v5 (F := F) x1)
    (h6 : V (Proc.devRef .tc main_v6) = val_main_v6 (F := F) x1) :
    after opsB V (Proc.devRef .tc main_v29) = val_main_v29 (F := F) x1 := by
  simp only [opsA, opsB, opsC, opsD, opsE, ops, List.take_succ_cons, List.take_zero, List.drop_succ_cons, List.drop_zero]
  after_results_simp
  try simp only [TRef.ofBuf, TRef.toBuf, cast_eq]
  simp only [h5, h6]
  unfold
    val_main_v29 val_main_v28 val_main_v27 val_main_v26 val_main_v25 val_main_v24 val_main_c_5 val_main_v23 val_main_v22 val_main_c_4 val_main_v21
    val_main_v20 val_main_v19 val_main_v18 val_main_v17 val_main_c_3 val_main_v16 val_main_v15 val_main_c val_main_v14 val_main_call0_v1
    val_main_call0_v0 val_main_cst_2 val_main_v13 val_main_v12 val_main_v11 val_main_cst_1 val_main_v10 val_main_v9 val_main_v8 val_main_cst_0
    val_main_v7 val_main_cst
  rfl

theorem propB (x0 : (⟨S100000x128, .f32⟩ : BufTy).Contents (Elt F)) (x1 : (⟨S2x1600000, .i32⟩ : BufTy).Contents (Elt F)) (h0 : V (Proc.devRef .tc main_arg0) = x0)
    (h5 : V (Proc.devRef .tc main_v5) = val_main_v5 (F := F) x1) (h6 : V (Proc.devRef .tc main_v6) = val_main_v6 (F := F) x1) :
    after opsB V (Proc.devRef .tc main_v55) = val_main_v55 (F := F) x0 x1 := by
  simp only [opsA, opsB, opsC, opsD, opsE, ops, List.take_succ_cons, List.take_zero, List.drop_succ_cons, List.drop_zero]
  after_results_simp
  try simp only [TRef.ofBuf, TRef.toBuf, cast_eq]
  simp only [h0, h5, h6]
  unfold
    val_main_v55 val_main_v54 val_main_v53 val_main_cst_11 val_main_v52 val_main_v51 val_main_v50 val_main_v49 val_main_v48 val_main_v47 val_main_v46
    val_main_v45 val_main_c_10 val_main_v44 val_main_v43 val_main_c_9 val_main_v42 val_main_v41 val_main_v40 val_main_cst_8 val_main_v39 val_main_v38
    val_main_v37 val_main_v36 val_main_v35 val_main_v34 val_main_v33 val_main_v32 val_main_c_7 val_main_v31 val_main_v30 val_main_c_6 val_main_v29
    val_main_v28 val_main_v27 val_main_v26 val_main_v25 val_main_v24 val_main_c_5 val_main_v23 val_main_v22 val_main_c_4 val_main_v21 val_main_v20
    val_main_v19 val_main_v18 val_main_v17 val_main_c_3 val_main_v16 val_main_v15 val_main_c val_main_v14 val_main_call0_v1 val_main_call0_v0
    val_main_cst_2 val_main_v13 val_main_v12 val_main_v11 val_main_cst_1 val_main_v10 val_main_v9 val_main_v8 val_main_cst_0 val_main_v7 val_main_cst
  rfl

/-- The second window writes neither the index vectors nor the layers' parameters. -/
theorem keepB (r : Ref sig .tc) (hr : r = main_v5 ∨ r = main_v6 ∨ r = main_arg2 ∨ r = main_arg3 ∨ r = main_arg4 ∨ r = main_arg5) :
    after opsB V (Proc.devRef .tc r) = V (Proc.devRef .tc r) := by
  simp only [opsA, opsB, opsC, opsD, opsE, ops, List.take_succ_cons, List.take_zero, List.drop_succ_cons, List.drop_zero]
  rcases hr with rfl | rfl | rfl | rfl | rfl | rfl <;> after_results_simp

/-! ## The first dense stretch -/

theorem reluC (x0 : (⟨S100000x128, .f32⟩ : BufTy).Contents (Elt F)) (x1 : (⟨S2x1600000, .i32⟩ : BufTy).Contents (Elt F)) (x2 : (⟨S128x64, .f32⟩ : BufTy).Contents (Elt F)) (x3 : (⟨S64, .f32⟩ : BufTy).Contents (Elt F))
    (h55 : V (Proc.devRef .tc main_v55) = val_main_v55 (F := F) x0 x1)
    (h2 : V (Proc.devRef .tc main_arg2) = x2) (h3 : V (Proc.devRef .tc main_arg3) = x3) :
    after opsC V (Proc.devRef .tc main_v60) = val_main_v60 (F := F) x0 x1 x2 x3 := by
  simp only [opsA, opsB, opsC, opsD, opsE, ops, List.take_succ_cons, List.take_zero, List.drop_succ_cons, List.drop_zero]
  after_results_simp
  simp only [ofBuf_toBuf]
  simp only [h55, h2, h3]
  unfold
    val_main_v60 val_main_call1_v0 val_main_call1_cst val_main_v59 val_main_v58 val_main_v57 val_main_v56
  rfl

/-- The first dense stretch writes neither the index vectors, nor the edge weights, nor the second layer's parameters. -/
theorem keepC (r : Ref sig .tc) (hr : r = main_v5 ∨ r = main_v6 ∨ r = main_v29 ∨ r = main_arg4 ∨ r = main_arg5) :
    after opsC V (Proc.devRef .tc r) = V (Proc.devRef .tc r) := by
  simp only [opsA, opsB, opsC, opsD, opsE, ops, List.take_succ_cons, List.take_zero, List.drop_succ_cons, List.drop_zero]
  rcases hr with rfl | rfl | rfl | rfl | rfl <;> after_results_simp

/-! ## The two further propagations and the second product and bias -/

theorem affineD (x0 : (⟨S100000x128, .f32⟩ : BufTy).Contents (Elt F)) (x1 : (⟨S2x1600000, .i32⟩ : BufTy).Contents (Elt F)) (x2 : (⟨S128x64, .f32⟩ : BufTy).Contents (Elt F)) (x3 : (⟨S64, .f32⟩ : BufTy).Contents (Elt F)) (x4 : (⟨S64x40, .f32⟩ : BufTy).Contents (Elt F)) (x5 : (⟨S40, .f32⟩ : BufTy).Contents (Elt F))
    (h60 : V (Proc.devRef .tc main_v60) = val_main_v60 (F := F) x0 x1 x2 x3) (h29 : V (Proc.devRef .tc main_v29) = val_main_v29 (F := F) x1)
    (h5 : V (Proc.devRef .tc main_v5) = val_main_v5 (F := F) x1) (h6 : V (Proc.devRef .tc main_v6) = val_main_v6 (F := F) x1)
    (h4 : V (Proc.devRef .tc main_arg4) = x4) (h5' : V (Proc.devRef .tc main_arg5) = x5) :
    after opsD V (Proc.devRef .tc main_v90) = val_main_v90 (F := F) x0 x1 x2 x3 x4 x5 := by
  simp only [opsA, opsB, opsC, opsD, opsE, ops, List.take_succ_cons, List.take_zero, List.drop_succ_cons, List.drop_zero]
  after_results_simp
  simp only [h60, h29, h5, h6, h4, h5']
  unfold
    val_main_v90 val_main_v89 val_main_v88 val_main_v87 val_main_v86 val_main_v85 val_main_v84 val_main_cst_17 val_main_v83 val_main_v82 val_main_v81
    val_main_v80 val_main_v79 val_main_v78 val_main_v77 val_main_v76 val_main_c_16 val_main_v75 val_main_v74 val_main_c_15 val_main_v73 val_main_v72
    val_main_v71 val_main_cst_14 val_main_v70 val_main_v69 val_main_v68 val_main_v67 val_main_v66 val_main_v65 val_main_v64 val_main_v63 val_main_c_13
    val_main_v62 val_main_v61 val_main_c_12
  rfl

/-! ## The row-wise log-softmax -/

theorem logSoftmaxE (x0 : (⟨S100000x128, .f32⟩ : BufTy).Contents (Elt F)) (x1 : (⟨S2x1600000, .i32⟩ : BufTy).Contents (Elt F)) (x2 : (⟨S128x64, .f32⟩ : BufTy).Contents (Elt F)) (x3 : (⟨S64, .f32⟩ : BufTy).Contents (Elt F)) (x4 : (⟨S64x40, .f32⟩ : BufTy).Contents (Elt F)) (x5 : (⟨S40, .f32⟩ : BufTy).Contents (Elt F))
    (h90 : V (Proc.devRef .tc main_v90) = val_main_v90 (F := F) x0 x1 x2 x3 x4 x5) :
    after opsE V (Proc.devRef .tc main_v91) = val_main_v91 (F := F) x0 x1 x2 x3 x4 x5 := by
  simp only [opsA, opsB, opsC, opsD, opsE, ops, List.take_succ_cons, List.take_zero, List.drop_succ_cons, List.drop_zero]
  after_results_simp
  simp only [ofBuf_toBuf]
  simp only [h90]
  unfold
    val_main_v91 val_main_call2_v10 val_main_call2_v9 val_main_call2_v8 val_main_call2_v7 val_main_call2_cst_1 val_main_call2_v6 val_main_call2_v5
    val_main_call2_v4 val_main_call2_v3 val_main_call2_v2 val_main_call2_v1 val_main_call2_cst_0 val_main_call2_v0 val_main_call2_cst
  rfl

/-! ## The whole fold -/

/-- The fold of all 130 operations from the launch contents, at the result buffer, is the last stage. -/
theorem fold_eq (m : (ℓ : Loc nD τ sig) → Buf (Elt F) ℓ) (c : Dev nD) :
    after ops (launchContents m c) (Proc.devRef .tc main_v91)
      = val_main_v91 (F := F) (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5)) := by
  rw [ops_eq, StableHlo.after_append, StableHlo.after_append, StableHlo.after_append, StableHlo.after_append]
  have a5 := srcA (launchContents m c) (m ((c.tc : Thread nD τ).loc main_arg1)) rfl
  have a6 := dstA (launchContents m c) (m ((c.tc : Thread nD τ).loc main_arg1)) rfl
  have b5 := (keepB (after opsA (launchContents m c)) main_v5 (.inl rfl)).trans a5
  have b6 := (keepB (after opsA (launchContents m c)) main_v6 (.inr (.inl rfl))).trans a6
  have b29 := normB (after opsA (launchContents m c)) _ a5 a6
  have b55 := propB (after opsA (launchContents m c)) _ _ (keepA (launchContents m c) main_arg0 (.inl rfl)) a5 a6
  have k2 : after opsB (after opsA (launchContents m c)) (Proc.devRef .tc main_arg2) = m ((c.tc : Thread nD τ).loc main_arg2) :=
    (keepB _ main_arg2 (.inr (.inr (.inl rfl)))).trans (keepA _ main_arg2 (.inr (.inl rfl)))
  have k3 : after opsB (after opsA (launchContents m c)) (Proc.devRef .tc main_arg3) = m ((c.tc : Thread nD τ).loc main_arg3) :=
    (keepB _ main_arg3 (.inr (.inr (.inr (.inl rfl))))).trans (keepA _ main_arg3 (.inr (.inr (.inl rfl))))
  have k4 : after opsB (after opsA (launchContents m c)) (Proc.devRef .tc main_arg4) = m ((c.tc : Thread nD τ).loc main_arg4) :=
    (keepB _ main_arg4 (.inr (.inr (.inr (.inr (.inl rfl)))))).trans (keepA _ main_arg4 (.inr (.inr (.inr (.inl rfl)))))
  have k5 : after opsB (after opsA (launchContents m c)) (Proc.devRef .tc main_arg5) = m ((c.tc : Thread nD τ).loc main_arg5) :=
    (keepB _ main_arg5 (.inr (.inr (.inr (.inr (.inr (rfl))))))).trans (keepA _ main_arg5 (.inr (.inr (.inr (.inr (rfl))))))
  have c60 := reluC (after opsB (after opsA (launchContents m c))) _ _ _ _ b55 k2 k3
  refine logSoftmaxE _ _ _ _ _ _ _ (affineD _ _ _ _ _ _ _ c60
    ((keepC _ main_v29 (.inr (.inr (.inl rfl)))).trans b29) ((keepC _ main_v5 (.inl rfl)).trans b5)
    ((keepC _ main_v6 (.inr (.inl rfl))).trans b6)
    ((keepC _ main_arg4 (.inr (.inr (.inr (.inl rfl))))).trans k4) ((keepC _ main_arg5 (.inr (.inr (.inr (.inr (rfl)))))).trans k5))

end Cert.ReferenceIdeal.RefValue

end
-- ==== Proof.lean ====
/-
  A two-layer simplified graph convolution on 100000 nodes: the normalised adjacency (with self-loops) applied twice to
  the features, a dense layer with relu, the adjacency applied twice again, a dense layer with a row-wise log-softmax.
  The kernel program runs the two dense layers as two pipelined kernels over 25 blocks of 4000 rows each and everything
  else as the same host operations the reference runs.
  On the extended reals the two programs compute the same function of the arguments. The host operations are literally
  the same on both sides, so the index vectors, the edge weights and the propagated features are the reference's own
  stage values. Each kernel stores, per block of rows, the layer of that block (the narrowing of the matrix product's
  operands is the identity, the product into zeros is the plain sum over the contracted axis, the row maximum and the
  row sum of exponentials are folds over the row); a layer reads each row by itself, so the 25 blocks make up the
  layer of the whole matrix, and the reference's dense stretches are that same layer of the same matrix.
  The three frames: the two kernel programs' are the launch over the program's segments with the bodies' stores inside
  their staging buffers; the reference's is its run with the result dropped. The idealization rewrote no operation, so
  there is nothing to preserve.
-/
import proofs.«139089_j33801392619927_1_alg».proof.Defs
import proofs.«139089_j33801392619927_1_alg».proof.Proof.Gen.Kernel
import proofs.«139089_j33801392619927_1_alg».proof.Proof.Gen.Kernel.Frame
import proofs.«139089_j33801392619927_1_alg».proof.Proof.Gen.KernelIdeal
import proofs.«139089_j33801392619927_1_alg».proof.Proof.Gen.KernelIdeal.Frame
import proofs.«139089_j33801392619927_1_alg».proof.Proof.Gen.ReferenceIdeal
import proofs.«139089_j33801392619927_1_alg».proof.Proof.Gen.Pre_finite_inputs
import proofs.«139089_j33801392619927_1_alg».proof.Proof.KernelRun
import proofs.«139089_j33801392619927_1_alg».proof.Proof.KernelValue
import proofs.«139089_j33801392619927_1_alg».proof.Proof.RefValue
import Idealize.ShloMosaic.Adequacy
import Idealize.ShloMosaic.Init

noncomputable section

namespace Cert.Proof

open Idealize.ShloMosaic Idealize.SL.Sem

/-- Both idealized programs end with the result buffer at the reference's last stage of the (agreeing) arguments. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.ReferenceIdeal.ReadP.val_main_v91 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))
      (m ((c.tc : Thread Cert.KernelIdeal.nD Cert.KernelIdeal.τ).loc Cert.KernelIdeal.main_arg2)) (m ((c.tc : Thread Cert.KernelIdeal.nD Cert.KernelIdeal.τ).loc Cert.KernelIdeal.main_arg3))
      (m ((c.tc : Thread Cert.KernelIdeal.nD Cert.KernelIdeal.τ).loc Cert.KernelIdeal.main_arg4)) (m ((c.tc : Thread Cert.KernelIdeal.nD Cert.KernelIdeal.τ).loc Cert.KernelIdeal.main_arg5)), ?_, ?_⟩
  · exact (θ_run Cert.KernelIdeal.defs _ _).mono
      (fun r h c => ⟨(h c).1.trans (Cert.KernelIdeal.OutValue.out_eq m ρ c), (h c).2⟩) (Cert.KernelIdeal.GenRun.run_out m ρ)
  · refine (θ_run Cert.ReferenceIdeal.defs _ _).mono (fun r h c => ⟨(h c).1.trans ?_, (h c).2⟩)
      (Cert.ReferenceIdeal.ValueP.run (F := Ideal) m' ρ')
    rw [Cert.ReferenceIdeal.RefValue.fold_eq m' c, (hagree c).1, (hagree c).2.1, (hagree c).2.2.1, (hagree c).2.2.2.1,
      (hagree c).2.2.2.2.1, (hagree c).2.2.2.2.2]

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  fun m ρ _ => (θ_run Cert.ReferenceIdeal.defs _ _).mono (fun _ h c => (h c).2) (Cert.ReferenceIdeal.ValueP.run (F := Ideal) m ρ),
  trivial,
  algebraic⟩

end Cert.Proof

end
